-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x8192 : S_.BroadcastsInDim S8x4096x8192 (![] : Fin 0 → Fin S8x4096x8192.rank)
  reducesTo_S8x4096x8192_S_d0_1_2 : S8x4096x8192.ReducesTo [0, 1, 2] S_
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x8192 .f32) (main_arg2 : FVec F S8x4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x8192 .f32 := Host.absf main_arg1
  let main_cst_0 : FVec F S_ .f32 := constant S_ .f32 0x7F800000#32
  let main_v5 : FVec F S8x4096x8192 .f32 := broadcastInDim S8x4096x8192 ![] bcast_S_S8x4096x8192 main_cst_0
  let main_v6 : IVec S8x4096x8192 1 := cmpf .olt main_v4 main_v5
  let main_c_1 : IVec S_ 1 := constantI S_ 1 1#1
  let main_v7 : IVec S_ 1 := (fun x v => Host.reduce IntOp.andi x v reducesTo_S8x4096x8192_S_d0_1_2 h_S_) main_v6 main_c_1
  let main_v8 : IVec S_ 1 := andi main_v3 main_v7
  let main_v9 : FVec F S8x4096x4096 .f32 := Host.absf main_arg2
  let main_cst_2 : FVec F S_ .f32 := constant S_ .f32 0x7F800000#32
  let main_v10 : FVec F S8x4096x4096 .f32 := broadcastInDim S8x4096x4096 ![] bcast_S_S8x4096x4096 main_cst_2
  let main_v11 : IVec S8x4096x4096 1 := cmpf .olt main_v9 main_v10
  let main_c_3 : IVec S_ 1 := constantI S_ 1 1#1
  let main_v12 : IVec S_ 1 := (fun x v => Host.reduce IntOp.andi x v reducesTo_S8x4096x4096_S_d0_1_2 h_S_) main_v11 main_c_3
  let main_v13 : IVec S_ 1 := andi main_v8 main_v12
  main_v13
-- ==== Kernel.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S8x2048x4096 : Shape := ⟨3, ![8, 2048, 4096]⟩
abbrev S1x256x4096 : Shape := ⟨3, ![1, 256, 4096]⟩
abbrev S1x4096x256 : Shape := ⟨3, ![1, 4096, 256]⟩
abbrev S256x4096 : Shape := ⟨2, ![256, 4096]⟩
abbrev S4096x256 : Shape := ⟨2, ![4096, 256]⟩
abbrev S256x256 : Shape := ⟨2, ![256, 256]⟩

abbrev nBuf : Space → Nat
  | .hbm => 9
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S8x4096x8192, .f32⟩
  | .hbm, ⟨2, _⟩ => ⟨S8x4096x4096, .f32⟩
  | .hbm, ⟨3, _⟩ => ⟨S16384x4096, .bf16⟩
  | .hbm, ⟨4, _⟩ => ⟨S8x2048x4096, .bf16⟩
  | .hbm, ⟨5, _⟩ => ⟨S8x4096x8192, .bf16⟩
  | .hbm, ⟨6, _⟩ => ⟨S8x4096x4096, .bf16⟩
  | .hbm, ⟨7, _⟩ => ⟨S8x2048x4096, .f32⟩
  | .hbm, ⟨8, _⟩ => ⟨S16384x4096, .f32⟩
  | .local _ .vmem, ⟨0, _⟩ => ⟨S1x256x4096, .bf16⟩
  | .local _ .vmem, ⟨1, _⟩ => ⟨S1x256x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x4096, .bf16⟩
  | .local _ .vmem, ⟨7, _⟩ => ⟨S1x256x4096, .bf16⟩
  | .local _ .vmem, ⟨8, _⟩ => ⟨S1x256x4096, .f32⟩
  | .local _ .vmem, ⟨9, _⟩ => ⟨S1x256x4096, .f32⟩
  | .local _ .vmem, ⟨10, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 16], ![false, false, false]⟩

def k0_cond2 (i : grid0.Coords) : BitVec 1 :=
  let arg2 : BitVec 32 := BitVec.ofNat 32 (i 2).val
  let c15_i32 : BitVec 32 := 15#32
  let v23 : BitVec 1 := Scalar.cmpi .eq arg2 c15_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S16384x4096_S8x2048x4096 : S16384x4096.ShapeCasts S8x2048x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  shapeCasts_S256x4096_S1x256x4096 : S256x4096.ShapeCasts S1x256x4096
  shapeCasts_S8x2048x4096_S16384x4096 : S8x2048x4096.ShapeCasts S16384x4096
  dot_S256x4096_S4096x256_S256x256_1_0_0_1_n_n_wf : DotDims.WF S256x4096 S4096x256 S256x256 [1] [0] [0] [1] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x2048x4096.size a
  hwx0_0 : ∀ i : grid0.Coords, EltTy.bits .bf16 = 32 ∨ (Rect.block (s := S8x2048x4096) S1x256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x256.size a ≤ S8x4096x8192.size a
  hwx0_1 : ∀ i : grid0.Coords, EltTy.bits .bf16 = 32 ∨ (Rect.block (s := S8x4096x8192) S1x4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x256.size a ≤ S8x4096x8192.size a
  hwx0_2 : ∀ i : grid0.Coords, EltTy.bits .bf16 = 32 ∨ (Rect.block (s := S8x4096x8192) S1x4096x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S8x4096x4096.size a
  hwx0_3 : ∀ i : grid0.Coords, EltTy.bits .bf16 = 32 ∨ (Rect.block (s := S8x4096x4096) S1x256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x4096.size a ≤ S8x2048x4096.size a
  hwx0_4 : ∀ i : grid0.Coords, EltTy.bits .f32 = 32 ∨ (Rect.block (s := S8x2048x4096) S1x256x4096.size (cc0_transform_4 i) (hinb0_4 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_v1) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8x4096x8192 : Shape := ⟨3, ![8, 4096, 8192]⟩
abbrev S8x4096x4096 : Shape := ⟨3, ![8, 4096, 4096]⟩
abbrev S8x2048x4096 : Shape := ⟨3, ![8, 2048, 4096]⟩
abbrev S8x2048x8192 : Shape := ⟨3, ![8, 2048, 8192]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x8192, .f32⟩
  | .hbm, ⟨2, _⟩ => ⟨S8x4096x4096, .f32⟩
  | .hbm, ⟨3, _⟩ => ⟨S8x2048x4096, .f32⟩
  | .hbm, ⟨4, _⟩ => ⟨S8x2048x8192, .f32⟩
  | .hbm, ⟨5, _⟩ => ⟨S8x2048x4096, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S_, .f32⟩
  | .hbm, ⟨10, _⟩ => ⟨S8x2048x4096, .f32⟩
  | .hbm, ⟨11, _⟩ => ⟨S8x2048x4096, .f32⟩
  | .hbm, ⟨12, _⟩ => ⟨S_, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S16384x4096_S8x2048x4096 : S16384x4096.ShapeCasts S8x2048x4096
  slices_S8x2048x8192_S8x2048x4096_0_0_0 : S8x2048x8192.Slices ![0, 0, 0] S8x2048x4096
  slices_S8x2048x8192_S8x2048x4096_0_0_4096 : S8x2048x8192.Slices ![0, 0, 4096] S8x2048x4096
  bcast_S_S8x2048x4096 : S_.BroadcastsInDim S8x2048x4096 (![] : Fin 0 → Fin S8x2048x4096.rank)
  shapeCasts_S8x2048x4096_S16384x4096 : S8x2048x4096.ShapeCasts S16384x4096
  dot_S8x2048x4096_S8x4096x8192_S8x2048x8192_2_1_1_2_0_0_wf : DotDims.WF S8x2048x4096 S8x4096x8192 S8x2048x8192 [2] [1] [1] [2] [0] [0]
  dot_S8x2048x4096_S8x4096x4096_S8x2048x4096_2_1_1_2_0_0_wf : DotDims.WF S8x2048x4096 S8x4096x4096 S8x2048x4096 [2] [1] [1] [2] [0] [0]

variable [Facts₀]

def dot_S8x2048x4096_S8x4096x8192_S8x2048x8192_2_1_1_2_0_0 : DotDims S8x2048x4096 S8x4096x8192 S8x2048x8192 where
  lhsContracting := [2]
  rhsContracting := [1]
  lhsNonContracting := [1]
  rhsNonContracting := [2]
  lhsBatch := [0]
  rhsBatch := [0]
  wf := dot_S8x2048x4096_S8x4096x8192_S8x2048x8192_2_1_1_2_0_0_wf
def dot_S8x2048x4096_S8x4096x4096_S8x2048x4096_2_1_1_2_0_0 : DotDims S8x2048x4096 S8x4096x4096 S8x2048x4096 where
  lhsContracting := [2]
  rhsContracting := [1]
  lhsNonContracting := [1]
  rhsNonContracting := [2]
  lhsBatch := [0]
  rhsBatch := [0]
  wf := dot_S8x2048x4096_S8x4096x4096_S8x2048x4096_2_1_1_2_0_0_wf

class Facts : Prop extends Facts₀ where

variable [Facts]
-- ==== Proof.K.Run.lean ====
import proofs.«142885_j90031104459227_1_alg».proof.Proof.Gen.Kernel.Launch
import proofs.«142885_j90031104459227_1_alg».proof.Proof.Gen.Kernel.Skeleton
import proofs.«142885_j90031104459227_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the kernel

The grid is (expert, token tile, intermediate tile); the innermost coordinate walks the 16 intermediate tiles of
one (expert, token tile) pair. At a point the body adds the tile's contribution to an accumulator it keeps in
scratch memory — after zeroing it at the first tile — and copies the accumulator into the output block at the
last tile. -/

/-- The point is the first intermediate tile of its (expert, token tile) pair: the accumulator is zeroed. -/
abbrev isFirst (i : grid0.Coords) : Prop :=
  (Scalar.cmpi .ne (Scalar.extui (Scalar.cmpi .eq (BitVec.ofNat 32 (i 2).val) 0#32)) 0#32) = 1#1
/-- The point is the last intermediate tile: the accumulator is copied to the output block. -/
abbrev isLast (i : grid0.Coords) : Prop := k0_cond2 i = 1#1

/-- Offsets that are all zero. -/
theorem off2_zero : (![0, 0] : Fin 2 → Nat) = fun _ => 0 := funext fun a => by
  match a with | ⟨0, _⟩ => rfl | ⟨1, _⟩ => rfl
theorem off3_zero : (![0, 0, 0] : Fin 3 → Nat) = fun _ => 0 := funext fun a => by
  match a with | ⟨0, _⟩ => rfl | ⟨1, _⟩ => rfl | ⟨2, _⟩ => rfl

/-- A rectangle at offset zero of the shape's own size holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- So a list of stores whose LAST one is through such a rectangle leaves that store's payload. -/
theorem read_writes_last_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_unit_zero h inb y⟩),
    View.canon_cons_unit_zero h inb]

set_option maxHeartbeats 1000000 in
/-- A middle tile: the accumulator `a` becomes `a` plus the tile's contribution; the output block is not touched. -/
theorem run_mid (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : ¬ isFirst i) (hc1 : ¬ isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare o
            ∗ owns (c : Thread nD τ) arg8 fullShare (k0_pay2 x gt up a dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

set_option maxHeartbeats 1000000 in
/-- The first tile: the accumulator is zeroed, then the tile's contribution added; the output block is not touched. -/
theorem run_first (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : isFirst i) (hc1 : ¬ isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare o
            ∗ owns (c : Thread nD τ) arg8 fullShare (k0_pay2 x gt up (k0_pay1 (F := F)) dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

set_option maxHeartbeats 1000000 in
/-- The last tile: the accumulator takes the tile's contribution and is copied, reshaped, into the output block. -/
theorem run_last (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : ¬ isFirst i) (hc1 : isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare (k0_pay3 (k0_pay2 x gt up a dn))
            ∗ owns (c : Thread nD τ) arg8 fullShare (k0_pay2 x gt up a dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    rw [read_writes_last_unit_zero _ _ off3_zero]
    simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

end Cert.Kernel.Hand

end
-- ==== Proof.K.Data.lean ====
import proofs.«142885_j90031104459227_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel's proof data over the whole grid

Point `t` of the 1024-point grid is (expert `t / 128`, token tile `t / 16 % 8`, intermediate tile `t % 16`).
What the scratch accumulator holds after each point is a recursion on the point: zero at every first tile,
then one tile's contribution added per point. -/

/-- The first-tile test in closed form, decided over the grid. -/
theorem isFirst_iff : ∀ t : Fin cfg0.N, isFirst (grid0.coords t) ↔ t.val % 16 = 0 :=
  (by decide +kernel : ∀ t : Fin grid0.N, isFirst (grid0.coords t) ↔ t.val % 16 = 0)
/-- The last-tile test in closed form, decided over the grid. -/
theorem isLast_iff : ∀ t : Fin cfg0.N, isLast (grid0.coords t) ↔ t.val % 16 = 15 :=
  (by decide +kernel : ∀ t : Fin grid0.N, isLast (grid0.coords t) ↔ t.val % 16 = 15)

/-- Away from the last tile the output block is neither stored into nor written back. -/
theorem out_idle : ∀ t : Fin cfg0.N, ¬ isLast (grid0.coords t) → cfg0.idle 4 (grid0.coords t) = true := by decide +kernel
theorem out_noFlush : ∀ t : Fin cfg0.N, ¬ isLast (grid0.coords t) → (cfg0.win 4).flush t = false := by decide +kernel
/-- At the last tile it is stored. -/
theorem out_live : ∀ t : Fin cfg0.N, isLast (grid0.coords t) → cfg0.idle 4 (grid0.coords t) = false := by decide +kernel

section Entry
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks of a point, at their literal types: the token tile, the gate tile, the up tile, the down tile. -/
abbrev xblk (c : Dev nD) (t : Fin cfg0.N) : Vec F S1x256x4096 .bf16 := iblk V c 0 t
abbrev gblk (c : Dev nD) (t : Fin cfg0.N) : Vec F S1x4096x256 .bf16 := iblk V c 1 t
abbrev ublk (c : Dev nD) (t : Fin cfg0.N) : Vec F S1x4096x256 .bf16 := iblk V c 2 t
abbrev dblk (c : Dev nD) (t : Fin cfg0.N) : Vec F S1x256x4096 .bf16 := iblk V c 3 t

/-- THE ACCUMULATOR after point `n`: the point's contribution added to zero at a first tile, else to what the
    point before left. -/
def accAt (c : Dev nD) : (n : ℕ) → n < cfg0.N → Vec F S256x4096 .f32
  | 0, hn => k0_pay2 (xblk V c ⟨0, hn⟩) (gblk V c ⟨0, hn⟩) (ublk V c ⟨0, hn⟩) (k0_pay1 (F := F)) (dblk V c ⟨0, hn⟩)
  | n + 1, hn =>
    if (n + 1) % 16 = 0 then
      k0_pay2 (xblk V c ⟨n + 1, hn⟩) (gblk V c ⟨n + 1, hn⟩) (ublk V c ⟨n + 1, hn⟩) (k0_pay1 (F := F)) (dblk V c ⟨n + 1, hn⟩)
    else
      k0_pay2 (xblk V c ⟨n + 1, hn⟩) (gblk V c ⟨n + 1, hn⟩) (ublk V c ⟨n + 1, hn⟩) (accAt c n (Nat.lt_of_succ_lt hn)) (dblk V c ⟨n + 1, hn⟩)

/-- At a first tile. -/
theorem accAt_first (c : Dev nD) (t : Fin cfg0.N) (h : t.val % 16 = 0) :
    accAt V c t.val t.isLt = k0_pay2 (xblk V c t) (gblk V c t) (ublk V c t) (k0_pay1 (F := F)) (dblk V c t) := by
  obtain ⟨n, hn⟩ := t
  cases n with
  | zero => rfl
  | succ n => exact if_pos h

/-- At a later tile. -/
theorem accAt_next (c : Dev nD) (t : Fin cfg0.N) (h : ¬ t.val % 16 = 0) :
    accAt V c t.val t.isLt = k0_pay2 (xblk V c t) (gblk V c t) (ublk V c t)
      (accAt V c (t.val - 1) (Nat.lt_of_le_of_lt (Nat.sub_le _ _) t.isLt)) (dblk V c t) := by
  obtain ⟨n, hn⟩ := t
  cases n with
  | zero => exact absurd (Nat.zero_mod _) h
  | succ n => exact if_neg h

/-- The scratch operand: a whole scoped buffer of the kernel's own. -/
abbrev scM : Memref sig .tc .vmem S256x4096 .f32 := Memref.whole cc0_scratch0

/-- The region invariant before point `n`: before the first point the scratch at anything; afterwards at what
    the point before left; the generator register at some state throughout. -/
def PhiS (c : Dev nD) : (n : ℕ) → n ≤ cfg0.N → sProp 𝕄
  | 0, _ => Pipeline.ΦA spec0 c
  | n + 1, hn => iprop(owns (c : Thread nD τ) scM fullShare (accAt V c n hn) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (accAt V c n hn) ∗ (∃ r, prngReg c r)) := rfl
theorem PhiS_pos (c : Dev nD) (n : ℕ) (h : n ≤ cfg0.N) (hz : n ≠ 0) :
    PhiS V c n h = iprop(owns (c : Thread nD τ) scM fullShare (accAt V c (n - 1) (by omega)) ∗ (∃ r, prngReg c r)) := by
  cases n with
  | zero => exact absurd rfl hz
  | succ n => rfl

/-- The class invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- THE PROOF DATA on core `c`: the arrays as the region finds them; each input's buffer left at its block; the
    output's buffer left at the accumulator, reshaped; the invariant above; nothing owed. The gate and the up window
    read ONE array (two column ranges of it): each holds half of it; every other array is held whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (accAt V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = k0_pay3 (accAt V c t.val t.isLt) := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- Each window's current staging memref at point `t`, as the pipeline passes it, and its wholeness. -/
abbrev ms0 (t : Fin cfg0.N) : Memref sig .tc .vmem S1x256x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x4096 .f32 := win0_4.stage (cfg0.slots t 4)
abbrev hs4 (t : Fin cfg0.N) : (ms4 t).IsWhole := hstage0_4 ((cfg0.slots t 4).cast nbuf0_4)

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves_0 (c : Dev nD) (t : Fin cfg0.N) : (dat0 V c).leavesExact 0 t = owns (c : Thread nD τ) (ms0 t) fullShare (iblk V c 0 t) := by
  unfold Dat.leavesExact; rw [show cfg0.idle 0 (cfg0.grid.coords t) = false from rfl, after_0]
theorem leaves_1 (c : Dev nD) (t : Fin cfg0.N) : (dat0 V c).leavesExact 1 t = owns (c : Thread nD τ) (ms1 t) fullShare (iblk V c 1 t) := by
  unfold Dat.leavesExact; rw [show cfg0.idle 1 (cfg0.grid.coords t) = false from rfl, after_1]
theorem leaves_2 (c : Dev nD) (t : Fin cfg0.N) : (dat0 V c).leavesExact 2 t = owns (c : Thread nD τ) (ms2 t) fullShare (iblk V c 2 t) := by
  unfold Dat.leavesExact; rw [show cfg0.idle 2 (cfg0.grid.coords t) = false from rfl, after_2]
theorem leaves_3 (c : Dev nD) (t : Fin cfg0.N) : (dat0 V c).leavesExact 3 t = owns (c : Thread nD τ) (ms3 t) fullShare (iblk V c 3 t) := by
  unfold Dat.leavesExact; rw [show cfg0.idle 3 (cfg0.grid.coords t) = false from rfl, after_3]

set_option maxHeartbeats 4000000 in
/-- The body at any point: the inputs' memrefs hold their blocks; the closed forms say which of the three kinds of
    point it is; the invariant hands the body the scratch at what the point before left (at anything before the first
    point) and takes it back at this point's accumulator; the output's buffer is handed back untouched away from the
    last tile and at the reshaped accumulator at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, leaves_0, leaves_1, leaves_2, leaves_3]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  by_cases h0 : t.val % 16 = 0
  · have hl : ¬ isLast (grid0.coords t) := fun h => by have := (isLast_iff t).mp h; omega
    rw [Dat.leavesExact_idle (dat0 V c) 4 t (out_idle t hl) (out_noFlush t hl), accAt_first V c t h0]
    by_cases hz : t.val = 0
    · rw [PhiS_castSucc V c t, PhiS_zero V c _ _ hz, PhiA_eq]
      iintro ⟨⟨⟨%a, HS⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((isFirst_iff t).mpr h0) hl (iblk V c 0 t) (iblk V c 1 t) (iblk V c 2 t) (iblk V c 3 t) _ a _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((isFirst_iff t).mpr h0) hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hf : ¬ isFirst (grid0.coords t) := fun h => h0 ((isFirst_iff t).mp h)
    have hz : t.val ≠ 0 := fun h => h0 (by rw [h])
    rw [PhiS_castSucc V c t, PhiS_pos V c _ _ hz, accAt_next V c t h0]
    by_cases h1 : t.val % 16 = 15
    · have hl : isLast (grid0.coords t) := (isLast_iff t).mpr h1
      rw [show (dat0 V c).leavesExact 4 t = owns (c : Thread nD τ) (ms4 t) fullShare ((dat0 V c).after 4 t) from by
        unfold Dat.leavesExact; rw [out_live t hl], after_4, accAt_next V c t h0]
      iintro ⟨⟨HS, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hl : ¬ isLast (grid0.coords t) := fun h => h1 ((isLast_iff t).mp h)
      rw [Dat.leavesExact_idle (dat0 V c) 4 t (out_idle t hl) (out_noFlush t hl)]
      iintro ⟨⟨HS, Hg⟩, Ho, ⟨%d0, H0⟩, ⟨%d1, H1⟩, ⟨%d2, H2⟩, ⟨%d3, H3⟩, ⟨%d4, H4⟩⟩
      iapply (run_mid c Set.univ (grid0.coords t) _ _ _ _ _ _ _ _ _ _ _ _ hf hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat0 V c).Φ (Fin.last cfg0.N) ⊢ Pipeline.ΦA spec0 c := by
  have hne : (Fin.last cfg0.N).val ≠ 0 := by rw [Fin.val_last]; have : cfg0.N = 1024 := N_0; omega
  rw [show (dat0 V c).Φ (Fin.last cfg0.N) = PhiS V c (Fin.last cfg0.N).val (Nat.le_of_lt_succ (Fin.last cfg0.N).isLt) from rfl,
    PhiS_pos V c _ _ hne, PhiA_eq]
  iintro ⟨HS, Hg⟩
  isplitl [HS]
  · iexists _; iexact HS
  iexact Hg

end Entry

end Cert.Kernel.Hand

end
-- ==== Proof.K.Launch.lean ====
import proofs.«142885_j90031104459227_1_alg».proof.Proof.K.Data
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole program: host lines, the kernel region, a host line

@main converts the three arguments to bf16 and reshapes the tokens (four host operations), runs the kernel
region, and reshapes the region's result back to tokens × hidden (one host operation). The gate window and the
up window of the region read ONE array — the converted gate/up weight — at two column ranges: at the region's
entry that array's points-to is split in two halves, one per window; every other array goes to its window whole.
After the region only the result array and the buffer the last reshape writes are needed again, beside the three
argument arrays, which no operation and no window writes. -/

variable (m : (ℓ : Loc nD τ sig) → Buf (Elt F) ℓ)

/-- Core `c`'s buffers at launch, as a valuation; -/
abbrev W0 : Dev nD → Valuation τ sig (Elt F) := fun c b => m ((c : Dev nD), b)
/-- after the four host operations (the region's entry); -/
abbrev W1 : Dev nD → Valuation τ sig (Elt F) := fun c => StableHlo.after hostOps0 (W0 m c)
/-- the same read at the TensorCore's references (what the region's proof data take). -/
abbrev V1 : (c : Dev nD) → (b : Ref sig .tc) → Buf (Elt F) ((c : Thread nD τ).loc b) := fun c b => W1 m c b

/-- At the region's exit: its arrays at what the pipeline leaves, every other buffer as entered. -/
def W2 (c : Dev nD) : Valuation τ sig (Elt F) :=
  Pipeline.withArrays spec0 c (W1 m c) fun w => (dat0 (V1 m) c).arrAt w cfg0.N

/-- Only the output window stages the result array: it is read back whatever the other windows share. -/
theorem W2_out (c : Dev nD) :
    W2 m c (Proc.devRef .tc (Pipeline.arrRef spec0 4)) = (dat0 (V1 m) c).arrAt 4 cfg0.N := by
  unfold W2 Pipeline.withArrays
  have h : ∃ w', Proc.devRef .tc (Pipeline.arrRef spec0 w') = Proc.devRef (τ := τ) .tc (Pipeline.arrRef spec0 4) := ⟨4, rfl⟩
  rw [dif_pos h]
  suffices ∀ (w' : Fin 5) (e : Proc.devRef .tc (Pipeline.arrRef spec0 w') = Proc.devRef (τ := τ) .tc (Pipeline.arrRef spec0 4)),
      cast (congrArg (fun b' : DevRef τ sig => b'.ty.Contents (Elt F)) e) ((dat0 (V1 m) c).arrAt w' cfg0.N) = (dat0 (V1 m) c).arrAt 4 cfg0.N from this _ h.choose_spec
  intro w' e
  obtain rfl : w' = 4 := (by decide : ∀ w' : Fin 5, Pipeline.arrRef spec0 w' = Pipeline.arrRef spec0 4 → w' = 4) w' (Proc.devRef_injective _ e)
  rfl

theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After the last reshape. -/
abbrev W3 : Dev nD → Valuation τ sig (Elt F) := fun c => StableHlo.after hostOps1 (W2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation before the region writes an argument: each reaches the region, and the end, as launched. -/
theorem V1_arg (c : Dev nD) (b : Ref sig .tc) (hb : b ≠ main_v0 ∧ b ≠ main_v1 ∧ b ≠ main_v2 ∧ b ≠ main_v3) :
    V1 m c b = m ((c : Thread nD τ).loc b) :=
  StableHlo.after_of_forall_not_mem (b := Proc.devRef .tc b) hostOps0 (W0 m c) (List.forall_iff_forall_mem.mp (by
    obtain ⟨h0, h1, h2, h3⟩ := hb
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The unscoped buffers, one by one -/

/-- The TensorCore's nine unscoped buffers at contents `V`, listed. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5)) := by
  unfold unscopedBufs
  exact bigSep_eq_bigSepL_of_eq [main_arg0, main_arg1, main_arg2, main_v0, main_v1, main_v2, main_v3, main_v4, main_v5] (by decide) (by decide) _

/-- The shares the windows hold their arrays at. -/
theorem share_0 (c : Dev nD) : (dat0 (V1 m) c).share 0 = fullShare := rfl
theorem share_1 (c : Dev nD) : (dat0 (V1 m) c).share 1 = fullShare.left := rfl
theorem share_2 (c : Dev nD) : (dat0 (V1 m) c).share 2 = fullShare.right := rfl
theorem share_3 (c : Dev nD) : (dat0 (V1 m) c).share 3 = fullShare := rfl
theorem share_4 (c : Dev nD) : (dat0 (V1 m) c).share 4 = fullShare := rfl

/-- The pipeline's five arrays at contents `A`, window by window: whole buffers, the gate/up weight in two halves. -/
theorem arrays_list (c : Dev nD) (A : (w : Fin cfg0.W) → Buf (Elt F) ((cfg0.win w).arr.view.loc (c : Thread nD τ))) :
    ((dat0 (V1 m) c).arrays A : sProp 𝕄)
      = iprop((((c : Thread nD τ).loc main_v1) ↦{fullShare} A 0) ∗ (((c : Thread nD τ).loc main_v2) ↦{fullShare.left} A 1)
          ∗ (((c : Thread nD τ).loc main_v2) ↦{fullShare.right} A 2) ∗ (((c : Thread nD τ).loc main_v3) ↦{fullShare} A 3)
          ∗ (((c : Thread nD τ).loc main_v4) ↦{fullShare} A 4)) := by
  unfold Dat.arrays
  rw [bigSep_W0, (arr_whole0 0).set_eq_univ, (arr_whole0 1).set_eq_univ, (arr_whole0 3).set_eq_univ,
    (arr_whole0 4).set_eq_univ, share_0, share_1, share_2, share_3, share_4]

/-! ## The segments -/

/-- The prefetched tables' admissible contents: no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)

/-- The two buffers the last reshape touches: the region's result and its own. -/
def tailS : Finset (DevRef τ sig) := {Proc.devRef .tc main_v4, Proc.devRef .tc main_v5}

/-- Those two held at a valuation, one by one. -/
theorem held_tail (c : Dev nD) (W : Valuation τ sig (Elt F)) :
    (StableHlo.held (c : Thread nD τ) tailS W : sProp 𝕄)
      = iprop((((c : Thread nD τ).loc main_v4) ↦{fullShare} W (Proc.devRef .tc main_v4)) ∗ (((c : Thread nD τ).loc main_v5) ↦{fullShare} W (Proc.devRef .tc main_v5))) := by
  unfold StableHlo.held tailS
  rw [BI.bigSep_insert (by rw [Finset.mem_singleton]; exact StableHlo.devRef_ne_of_ne (by decide)), BI.bigSep_singleton]
  rfl

/-- The three argument arrays as launched. -/
abbrev Args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

theorem W2_v4 (c : Dev nD) : W2 m c (Proc.devRef .tc main_v4) = (dat0 (V1 m) c).arrAt 4 cfg0.N := W2_out m c
theorem W2_v5 (c : Dev nD) : W2 m c (Proc.devRef .tc main_v5) = V1 m c main_v5 := W2_of_ne m c main_v5 (by decide)

/-- The host lines before the region, over every unscoped buffer. -/
abbrev seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The reshape after the region, over the two buffers it touches; the arguments ride along. -/
abbrev seg1 : Pipeline.HostSeg (Name := ℕ) (U := UR sig nD τ) (pcfgs (F := F)) defs₀ 𝒱₀ L lv :=
  Pipeline.HostSeg.ofOps _ _ _ _ _ tailS hostOps1
    (fun op h => by
      simp only [hostOps1, List.mem_singleton] at h
      subst h
      exact subset_of_eq (StableHlo.reshape_bufs ..))
    (fun op h => (List.forall_iff_forall_mem.mp hostOps1_fresh) op h) (W2 m) (fun c => iprop(Args m c ∗ R c))

set_option backward.isDefEq.respectTransparency.types false in
/-- THE REGION: entered from every unscoped buffer at the entry contents — the windows' arrays into the pipeline (the
    gate/up weight split in halves), the generator register into the invariant, the other buffers bypassing — and left
    with the result array and the last reshape's buffer for the line after it, the arguments beside them. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) tailS (W2 m c) ∗ (Args m c ∗ R c))
  X c := iprop(∃ r, prngReg c r)
  Y c := iprop(∃ r, prngReg c r)
  Z c := iprop((((c : Thread nD τ).loc main_arg0) ↦{fullShare} V1 m c main_arg0) ∗ (((c : Thread nD τ).loc main_arg1) ↦{fullShare} V1 m c main_arg1)
          ∗ (((c : Thread nD τ).loc main_arg2) ↦{fullShare} V1 m c main_arg2) ∗ (((c : Thread nD τ).loc main_v5) ↦{fullShare} V1 m c main_v5))
  hentry c := by
    rw [Pipeline.ownSems0_none, ← Pipeline.unscopedBufs_held, unscopedBufs_list, show (pdats m 0 c) = dat0 (V1 m) c from rfl, arrays_list]
    have hhalf : ((((c : Thread nD τ).loc main_v2) ↦{fullShare} V1 m c main_v2) : sProp 𝕄)
        ⊢ iprop((((c : Thread nD τ).loc main_v2) ↦{fullShare.left} V1 m c main_v2) ∗ (((c : Thread nD τ).loc main_v2) ↦{fullShare.right} V1 m c main_v2)) :=
      (pointsTo_share (PosShare.mem_left_op_right fullShare)).1
    iintro ⟨⟨⟨Ha0, Ha1, Ha2, -, H1, H2, H3, H4, H5⟩, Hp, HO⟩, -, -⟩
    ihave Hs := hhalf $$ H2
    icases Hs with ⟨H2l, H2r⟩
    imodintro
    isplitl [H1 H2l H2r H3 H4]
    · isplitl [H1]; · iexact H1
      isplitl [H2l]; · iexact H2l
      isplitl [H2r]; · iexact H2r
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Ha2]; · iexact Ha2
    iexact H5
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out (V1 m) c).trans ?_
    unfold Pipeline.ΦA
    iintro ⟨Hr, Hp⟩
    isplitl [Hp]; · iexact Hp
    isplitr; · iempintro
    iexact Hr
  hexit c := by
    rw [show (pdats m 0 c) = dat0 (V1 m) c from rfl, arrays_list, held_tail, W2_v4, W2_v5,
      V1_arg m c main_arg0 (by decide), V1_arg m c main_arg1 (by decide), V1_arg m c main_arg2 (by decide)]
    iintro ⟨⟨-, -, -, -, H4⟩, HO, HY, ⟨Ha0, Ha1, Ha2, H5⟩⟩
    imodintro
    isplitl [H4 H5]
    · isplitl [H4]; · iexact H4
      iexact H5
    isplitl [Ha0 Ha1 Ha2]
    · isplitl [Ha0]; · iexact Ha0
      isplitl [Ha1]; · iexact Ha1
      iexact Ha2
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (seg0 m), .region (reg0 m), .host (seg1 m) ]

/-- @main IS the run of the segments. -/
theorem main_run (c : Dev nD) : main (F := F) c = Pipeline.Seg.run (segs m) := (main_chain c).trans (by chain_rfl)

/-- The last thread state, without the `owes`: the reshape's two buffers at the final contents, the arguments as launched,
    the generator register at some state. -/
abbrev Tₙ (c : Dev nD) : sProp 𝕄 :=
  iprop(StableHlo.held (c : Thread nD τ) tailS (W3 m c) ∗ Args m c ∗ ∃ r, prngReg c r)

set_option backward.isDefEq.respectTransparency.types false in
/-- THE RUN: at the compiled mesh, from any memory with zero counters, every weakly fair execution of @main on the
    TensorCores terminates, nothing faulting, and every final state has the result buffer at the last reshape of what
    the region's write-backs leave, and the three arguments as launched. -/
theorem run_main (ρ : Dev nD → PrngReg) : θ_run defs (onTc (τ := τ) (main (F := F))) ⟨m, fun _ => 0, ρ⟩ (fun r => ∀ c : Dev nD,
      r.2.mem ((c.tc : Thread nD τ).loc main_v5) = W3 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) tailS (W3 m c) ∗ (Args m c ∗ R c)) : sProp 𝕄) ⊢ _
      iintro ⟨Hh, Ha, Hp, HO⟩
      isplitr [HO]
      · isplitl [Hh]; · iexact Hh
        isplitl [Ha]; · iexact Ha
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = W3 m c (Proc.devRef .tc main_v5)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tₙ]
      rw [held_tail]
      iintro ⟨⟨⟨-, H5⟩, ⟨Ha0, Ha1, Ha2⟩, -⟩, HSI⟩
      icombine HSI H5 gives %h5
      icombine HSI Ha0 gives %h0
      icombine HSI Ha1 gives %h1
      icombine HSI Ha2 gives %h2
      imodintro
      isplitr
      · ipureintro
        exact ⟨Buf.eq_of_forall_mem_univ h5, Buf.eq_of_forall_mem_univ h0, Buf.eq_of_forall_mem_univ h1, Buf.eq_of_forall_mem_univ h2⟩
      iexact HSI)
    (hQ := fun s h c => h c)

/-- What the last reshape leaves: the region's result array, reshaped to tokens × hidden. -/
theorem W3_v5 (c : Dev nD) :
    W3 m c (Proc.devRef .tc main_v5)
      = shapeCast S16384x4096 ((dat0 (V1 m) c).arrAt 4 cfg0.N : FVec F S8x2048x4096 .f32) shapeCasts_S8x2048x4096_S16384x4096 := by
  show StableHlo.after hostOps1 (W2 m c) (Proc.devRef .tc main_v5) = _
  after_results
  rw [W2_v4]
  rfl

end Cert.Kernel.Hand

end
-- ==== Proof.KI.Run.lean ====
import proofs.«142885_j90031104459227_1_alg».proof.Proof.Gen.KernelIdeal.Launch
import proofs.«142885_j90031104459227_1_alg».proof.Proof.Gen.KernelIdeal.Skeleton
import proofs.«142885_j90031104459227_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One grid point of the kernel

The grid is (expert, token tile, intermediate tile); the innermost coordinate walks the 16 intermediate tiles of
one (expert, token tile) pair. At a point the body adds the tile's contribution to an accumulator it keeps in
scratch memory — after zeroing it at the first tile — and copies the accumulator into the output block at the
last tile. -/

/-- The point is the first intermediate tile of its (expert, token tile) pair: the accumulator is zeroed. -/
abbrev isFirst (i : grid0.Coords) : Prop :=
  (Scalar.cmpi .ne (Scalar.extui (Scalar.cmpi .eq (BitVec.ofNat 32 (i 2).val) 0#32)) 0#32) = 1#1
/-- The point is the last intermediate tile: the accumulator is copied to the output block. -/
abbrev isLast (i : grid0.Coords) : Prop := k0_cond2 i = 1#1

/-- Offsets that are all zero. -/
theorem off2_zero : (![0, 0] : Fin 2 → Nat) = fun _ => 0 := funext fun a => by
  match a with | ⟨0, _⟩ => rfl | ⟨1, _⟩ => rfl
theorem off3_zero : (![0, 0, 0] : Fin 3 → Nat) = fun _ => 0 := funext fun a => by
  match a with | ⟨0, _⟩ => rfl | ⟨1, _⟩ => rfl | ⟨2, _⟩ => rfl

/-- A rectangle at offset zero of the shape's own size holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

/-- So a list of stores whose LAST one is through such a rectangle leaves that store's payload. -/
theorem read_writes_last_unit_zero {sg : RefSig} {κ : Kind} {sp : Space} {S : Shape} {e : EltTy} (v : View sg κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self .., mem_unit_zero h inb y⟩),
    View.canon_cons_unit_zero h inb]

set_option maxHeartbeats 1000000 in
/-- A middle tile: the accumulator `a` becomes `a` plus the tile's contribution; the output block is not touched. -/
theorem run_mid (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : ¬ isFirst i) (hc1 : ¬ isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare o
            ∗ owns (c : Thread nD τ) arg8 fullShare (k0_pay2 x gt up a dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

set_option maxHeartbeats 1000000 in
/-- The first tile: the accumulator is zeroed, then the tile's contribution added; the output block is not touched. -/
theorem run_first (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : isFirst i) (hc1 : ¬ isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare o
            ∗ owns (c : Thread nD τ) arg8 fullShare (k0_pay2 x gt up (k0_pay1 (F := F)) dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

set_option maxHeartbeats 1000000 in
/-- The last tile: the accumulator takes the tile's contribution and is copied, reshaped, into the output block. -/
theorem run_last (c : Dev nD) (E : Set ℕ) (i : grid0.Coords)
    (arg3 : Memref sig .tc .vmem S1x256x4096 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x4096 .bf16) (harg6 : arg6.IsWhole)
    (arg7 : Memref sig .tc .vmem S1x256x4096 .f32) (harg7 : arg7.IsWhole) (arg8 : Memref sig .tc .vmem S256x4096 .f32) (harg8 : arg8.IsWhole)
    (hc0 : ¬ isFirst i) (hc1 : isLast i)
    (x : Vec F S1x256x4096 .bf16) (gt up : Vec F S1x4096x256 .bf16) (dn : Vec F S1x256x4096 .bf16) (o : Vec F S1x256x4096 .f32) (a : Vec F S256x4096 .f32)
    (K : PUnit → sProp 𝕄) :
    iprop(owns (c : Thread nD τ) arg3 fullShare x ∗ owns (c : Thread nD τ) arg4 fullShare gt ∗ owns (c : Thread nD τ) arg5 fullShare up
        ∗ owns (c : Thread nD τ) arg6 fullShare dn ∗ owns (c : Thread nD τ) arg7 fullShare o ∗ owns (c : Thread nD τ) arg8 fullShare a
        ∗ (iprop(owns (c : Thread nD τ) arg3 fullShare x ∗ owns (c : Thread nD τ) arg4 fullShare gt ∗ owns (c : Thread nD τ) arg5 fullShare up
            ∗ owns (c : Thread nD τ) arg6 fullShare dn ∗ owns (c : Thread nD τ) arg7 fullShare (k0_pay3 (k0_pay2 x gt up a dn))
            ∗ owns (c : Thread nD τ) arg8 fullShare (k0_pay2 x gt up a dn)) -∗ K ⟨⟩))
      ⊢ wp frame (wpE (defs₀ (F := F)) Variants.none c none) E (cc0__moe_kernel i arg3 harg3 arg4 harg4 arg5 harg5 arg6 harg6 arg7 harg7 arg8 harg8) K := by
  simp only [cc0__moe_kernel_eq_skeleton]; unfold cc0__moe_kernel_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr
    swap; · iexact H7
    ipureintro
    sl_unfold_words
    rw [read_writes_last_unit_zero _ _ off3_zero]
    simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]
  iexists _; isplitr
  swap; · iexact H8
  ipureintro
  sl_unfold_words
  rw [read_writes_last_unit_zero _ _ off2_zero]
  simp only [View.readAt_eq_ld, hf3, hf4, hf5, hf6, hf8, View.ld_unit_zero (S := S256x4096) off2_zero,
    View.ld_unit_zero (S := S1x256x4096) off3_zero, View.ld_unit_zero (S := S1x4096x256) off3_zero,
    View.readCov_unit_zero (S := S256x4096) _ off2_zero]

end Cert.KernelIdeal.Hand

end
-- ==== Proof.KI.Data.lean ====
import proofs.«142885_j90031104459227_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The kernel's proof data over the whole grid

Point `t` of the 1024-point grid is (expert `t / 128`, token tile `t / 16 % 8`, intermediate tile `t % 16`).
What the scratch accumulator holds after each point is a recursion on the point: zero at every first tile,
then one tile's contribution added per point. -/

/-- The first-tile test in closed form, decided over the grid. -/
theorem isFirst_iff : ∀ t : Fin cfg0.N, isFirst (grid0.coords t) ↔ t.val % 16 = 0 :=
  (by decide +kernel : ∀ t : Fin grid0.N, isFirst (grid0.coords t) ↔ t.val % 16 = 0)
/-- The last-tile test in closed form, decided over the grid. -/
theorem isLast_iff : ∀ t : Fin cfg0.N, isLast (grid0.coords t) ↔ t.val % 16 = 15 :=
  (by decide +kernel : ∀ t : Fin grid0.N, isLast (grid0.coords t) ↔ t.val % 16 = 15)

/-- Away from the last tile the output block is neither stored into nor written back. -/
theorem out_idle : ∀ t : Fin cfg0.N, ¬ isLast (grid0.coords t) → cfg0.idle 4 (grid0.coords t) = true := by decide +kernel
theorem out_noFlush : ∀ t : Fin cfg0.N, ¬ isLast (grid0.coords t) → (cfg0.win 4).flush t = false := by decide +kernel
/-- At the last tile it is stored. -/
theorem out_live : ∀ t : Fin cfg0.N, isLast (grid0.coords t) → cfg0.idle 4 (grid0.coords t) = false := by decide +kernel

section Entry
-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The four input blocks of a point, at their literal types: the token tile, the gate tile, the up tile, the down tile. -/
abbrev xblk (c : Dev nD) (t : Fin cfg0.N) : Vec F S1x256x4096 .bf16 := iblk V c 0 t
abbrev gblk (c : Dev nD) (t : Fin cfg0.N) : Vec F S1x4096x256 .bf16 := iblk V c 1 t
abbrev ublk (c : Dev nD) (t : Fin cfg0.N) : Vec F S1x4096x256 .bf16 := iblk V c 2 t
abbrev dblk (c : Dev nD) (t : Fin cfg0.N) : Vec F S1x256x4096 .bf16 := iblk V c 3 t

/-- THE ACCUMULATOR after point `n`: the point's contribution added to zero at a first tile, else to what the
    point before left. -/
def accAt (c : Dev nD) : (n : ℕ) → n < cfg0.N → Vec F S256x4096 .f32
  | 0, hn => k0_pay2 (xblk V c ⟨0, hn⟩) (gblk V c ⟨0, hn⟩) (ublk V c ⟨0, hn⟩) (k0_pay1 (F := F)) (dblk V c ⟨0, hn⟩)
  | n + 1, hn =>
    if (n + 1) % 16 = 0 then
      k0_pay2 (xblk V c ⟨n + 1, hn⟩) (gblk V c ⟨n + 1, hn⟩) (ublk V c ⟨n + 1, hn⟩) (k0_pay1 (F := F)) (dblk V c ⟨n + 1, hn⟩)
    else
      k0_pay2 (xblk V c ⟨n + 1, hn⟩) (gblk V c ⟨n + 1, hn⟩) (ublk V c ⟨n + 1, hn⟩) (accAt c n (Nat.lt_of_succ_lt hn)) (dblk V c ⟨n + 1, hn⟩)

/-- At a first tile. -/
theorem accAt_first (c : Dev nD) (t : Fin cfg0.N) (h : t.val % 16 = 0) :
    accAt V c t.val t.isLt = k0_pay2 (xblk V c t) (gblk V c t) (ublk V c t) (k0_pay1 (F := F)) (dblk V c t) := by
  obtain ⟨n, hn⟩ := t
  cases n with
  | zero => rfl
  | succ n => exact if_pos h

/-- At a later tile. -/
theorem accAt_next (c : Dev nD) (t : Fin cfg0.N) (h : ¬ t.val % 16 = 0) :
    accAt V c t.val t.isLt = k0_pay2 (xblk V c t) (gblk V c t) (ublk V c t)
      (accAt V c (t.val - 1) (Nat.lt_of_le_of_lt (Nat.sub_le _ _) t.isLt)) (dblk V c t) := by
  obtain ⟨n, hn⟩ := t
  cases n with
  | zero => exact absurd (Nat.zero_mod _) h
  | succ n => exact if_neg h

/-- The scratch operand: a whole scoped buffer of the kernel's own. -/
abbrev scM : Memref sig .tc .vmem S256x4096 .f32 := Memref.whole cc0_scratch0

/-- The region invariant before point `n`: before the first point the scratch at anything; afterwards at what
    the point before left; the generator register at some state throughout. -/
def PhiS (c : Dev nD) : (n : ℕ) → n ≤ cfg0.N → sProp 𝕄
  | 0, _ => Pipeline.ΦA spec0 c
  | n + 1, hn => iprop(owns (c : Thread nD τ) scM fullShare (accAt V c n hn) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(owns (c : Thread nD τ) scM fullShare (accAt V c n hn) ∗ (∃ r, prngReg c r)) := rfl
theorem PhiS_pos (c : Dev nD) (n : ℕ) (h : n ≤ cfg0.N) (hz : n ≠ 0) :
    PhiS V c n h = iprop(owns (c : Thread nD τ) scM fullShare (accAt V c (n - 1) (by omega)) ∗ (∃ r, prngReg c r)) := by
  cases n with
  | zero => exact absurd rfl hz
  | succ n => rfl

/-- The class invariant with the scratch as a memref owned at some contents. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- THE PROOF DATA on core `c`: the arrays as the region finds them; each input's buffer left at its block; the
    output's buffer left at the accumulator, reshaped; the invariant above; nothing owed. The gate and the up window
    read ONE array (two column ranges of it): each holds half of it; every other array is held whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => k0_pay3 (accAt V c t.val t.isLt)
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = k0_pay3 (accAt V c t.val t.isLt) := by dsimp only [dat0]

/-- Each input's current staging buffer holds its block at every point, fetched there or not. -/
theorem before_0 (c : Dev nD) (t : Fin cfg0.N) (d) : (dat0 V c).before 0 t d = iblk V c 0 t :=
  ((dat0 V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 V c).before 1 t d = iblk V c 1 t :=
  ((dat0 V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 V c).before 2 t d = iblk V c 2 t :=
  ((dat0 V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat0 V c).before 3 t d = iblk V c 3 t :=
  ((dat0 V c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-! ## The body obligation -/

/-- Each window's current staging memref at point `t`, as the pipeline passes it, and its wholeness. -/
abbrev ms0 (t : Fin cfg0.N) : Memref sig .tc .vmem S1x256x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x4096 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x4096 .f32 := win0_4.stage (cfg0.slots t 4)
abbrev hs4 (t : Fin cfg0.N) : (ms4 t).IsWhole := hstage0_4 ((cfg0.slots t 4).cast nbuf0_4)

/-- What the body is called with at point `t`, -/
def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

theorem leaves_0 (c : Dev nD) (t : Fin cfg0.N) : (dat0 V c).leavesExact 0 t = owns (c : Thread nD τ) (ms0 t) fullShare (iblk V c 0 t) := by
  unfold Dat.leavesExact; rw [show cfg0.idle 0 (cfg0.grid.coords t) = false from rfl, after_0]
theorem leaves_1 (c : Dev nD) (t : Fin cfg0.N) : (dat0 V c).leavesExact 1 t = owns (c : Thread nD τ) (ms1 t) fullShare (iblk V c 1 t) := by
  unfold Dat.leavesExact; rw [show cfg0.idle 1 (cfg0.grid.coords t) = false from rfl, after_1]
theorem leaves_2 (c : Dev nD) (t : Fin cfg0.N) : (dat0 V c).leavesExact 2 t = owns (c : Thread nD τ) (ms2 t) fullShare (iblk V c 2 t) := by
  unfold Dat.leavesExact; rw [show cfg0.idle 2 (cfg0.grid.coords t) = false from rfl, after_2]
theorem leaves_3 (c : Dev nD) (t : Fin cfg0.N) : (dat0 V c).leavesExact 3 t = owns (c : Thread nD τ) (ms3 t) fullShare (iblk V c 3 t) := by
  unfold Dat.leavesExact; rw [show cfg0.idle 3 (cfg0.grid.coords t) = false from rfl, after_3]

set_option maxHeartbeats 4000000 in
/-- The body at any point: the inputs' memrefs hold their blocks; the closed forms say which of the three kinds of
    point it is; the invariant hands the body the scratch at what the point before left (at anything before the first
    point) and takes it back at this point's accumulator; the output's buffer is handed back untouched away from the
    last tile and at the reshaped accumulator at it. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, leaves_0, leaves_1, leaves_2, leaves_3]
  rw [show (dat0 V c).owesAt () t.succ = (dat0 V c).owesAt () t.castSucc from rfl]
  rw [show (dat0 V c).Φ t.succ = PhiS V c (t.val + 1) t.isLt from rfl, PhiS_succ]
  have hN : t.val < 1024 := lt_of_lt_of_eq t.isLt (show cfg0.N = 1024 from N_0)
  by_cases h0 : t.val % 16 = 0
  · have hl : ¬ isLast (grid0.coords t) := fun h => by have := (isLast_iff t).mp h; omega
    rw [Dat.leavesExact_idle (dat0 V c) 4 t (out_idle t hl) (out_noFlush t hl), accAt_first V c t h0]
    by_cases hz : t.val = 0
    · rw [PhiS_castSucc V c t, PhiS_zero V c _ _ hz, PhiA_eq]
      iintro ⟨⟨⟨%a, HS⟩, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((isFirst_iff t).mpr h0) hl (iblk V c 0 t) (iblk V c 1 t) (iblk V c 2 t) (iblk V c 3 t) _ a _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨HS, Hg⟩, Ho, ⟨%d0, H0⟩, ⟨%d1, H1⟩, ⟨%d2, H2⟩, ⟨%d3, H3⟩, ⟨%d4, H4⟩⟩
      iapply (run_first c Set.univ (grid0.coords t) _ _ _ _ _ _ _ _ _ _ _ _ ((isFirst_iff t).mpr h0) hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4
  · have hf : ¬ isFirst (grid0.coords t) := fun h => h0 ((isFirst_iff t).mp h)
    have hz : t.val ≠ 0 := fun h => h0 (by rw [h])
    rw [PhiS_castSucc V c t, PhiS_pos V c _ _ hz, accAt_next V c t h0]
    by_cases h1 : t.val % 16 = 15
    · have hl : isLast (grid0.coords t) := (isLast_iff t).mpr h1
      rw [show (dat0 V c).leavesExact 4 t = owns (c : Thread nD τ) (ms4 t) fullShare ((dat0 V c).after 4 t) from by
        unfold Dat.leavesExact; rw [out_live t hl], after_4, accAt_next V c t h0]
      iintro ⟨⟨HS, Hg⟩, Ho, ⟨%d0, H0⟩, ⟨%d1, H1⟩, ⟨%d2, H2⟩, ⟨%d3, H3⟩, ⟨%d4, H4⟩⟩
      iapply (run_last c Set.univ (grid0.coords t) _ _ _ _ _ _ _ _ _ _ _ _ hf hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · have hl : ¬ isLast (grid0.coords t) := fun h => h1 ((isLast_iff t).mp h)
      rw [Dat.leavesExact_idle (dat0 V c) 4 t (out_idle t hl) (out_noFlush t hl)]
      iintro ⟨⟨HS, Hg⟩, Ho, ⟨%d0, H0⟩, ⟨%d1, H1⟩, ⟨%d2, H2⟩, ⟨%d3, H3⟩, ⟨%d4, H4⟩⟩
      iapply (run_mid c Set.univ (grid0.coords t) _ _ _ _ _ _ _ _ _ _ _ _ hf hl (iblk V c 0 t) (iblk V c 1 t) (iblk V c 2 t) (iblk V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem Phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem Phi_out (c : Dev nD) : (dat0 V c).Φ (Fin.last cfg0.N) ⊢ Pipeline.ΦA spec0 c := by
  have hne : (Fin.last cfg0.N).val ≠ 0 := by rw [Fin.val_last]; have : cfg0.N = 1024 := N_0; omega
  rw [show (dat0 V c).Φ (Fin.last cfg0.N) = PhiS V c (Fin.last cfg0.N).val (Nat.le_of_lt_succ (Fin.last cfg0.N).isLt) from rfl,
    PhiS_pos V c _ _ hne, PhiA_eq]
  iintro ⟨HS, Hg⟩
  isplitl [HS]
  · iexists _; iexact HS
  iexact Hg

end Entry

end Cert.KernelIdeal.Hand

end
-- ==== Proof.KI.Launch.lean ====
import proofs.«142885_j90031104459227_1_alg».proof.Proof.KI.Data
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole program: host lines, the kernel region, a host line

@main converts the three arguments to bf16 and reshapes the tokens (four host operations), runs the kernel
region, and reshapes the region's result back to tokens × hidden (one host operation). The gate window and the
up window of the region read ONE array — the converted gate/up weight — at two column ranges: at the region's
entry that array's points-to is split in two halves, one per window; every other array goes to its window whole.
After the region only the result array and the buffer the last reshape writes are needed again, beside the three
argument arrays, which no operation and no window writes. -/

variable (m : (ℓ : Loc nD τ sig) → Buf (Elt F) ℓ)

/-- Core `c`'s buffers at launch, as a valuation; -/
abbrev W0 : Dev nD → Valuation τ sig (Elt F) := fun c b => m ((c : Dev nD), b)
/-- after the four host operations (the region's entry); -/
abbrev W1 : Dev nD → Valuation τ sig (Elt F) := fun c => StableHlo.after hostOps0 (W0 m c)
/-- the same read at the TensorCore's references (what the region's proof data take). -/
abbrev V1 : (c : Dev nD) → (b : Ref sig .tc) → Buf (Elt F) ((c : Thread nD τ).loc b) := fun c b => W1 m c b

/-- At the region's exit: its arrays at what the pipeline leaves, every other buffer as entered. -/
def W2 (c : Dev nD) : Valuation τ sig (Elt F) :=
  Pipeline.withArrays spec0 c (W1 m c) fun w => (dat0 (V1 m) c).arrAt w cfg0.N

/-- Only the output window stages the result array: it is read back whatever the other windows share. -/
theorem W2_out (c : Dev nD) :
    W2 m c (Proc.devRef .tc (Pipeline.arrRef spec0 4)) = (dat0 (V1 m) c).arrAt 4 cfg0.N := by
  unfold W2 Pipeline.withArrays
  have h : ∃ w', Proc.devRef .tc (Pipeline.arrRef spec0 w') = Proc.devRef (τ := τ) .tc (Pipeline.arrRef spec0 4) := ⟨4, rfl⟩
  rw [dif_pos h]
  suffices ∀ (w' : Fin 5) (e : Proc.devRef .tc (Pipeline.arrRef spec0 w') = Proc.devRef (τ := τ) .tc (Pipeline.arrRef spec0 4)),
      cast (congrArg (fun b' : DevRef τ sig => b'.ty.Contents (Elt F)) e) ((dat0 (V1 m) c).arrAt w' cfg0.N) = (dat0 (V1 m) c).arrAt 4 cfg0.N from this _ h.choose_spec
  intro w' e
  obtain rfl : w' = 4 := (by decide : ∀ w' : Fin 5, Pipeline.arrRef spec0 w' = Pipeline.arrRef spec0 4 → w' = 4) w' (Proc.devRef_injective _ e)
  rfl

theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-- After the last reshape. -/
abbrev W3 : Dev nD → Valuation τ sig (Elt F) := fun c => StableHlo.after hostOps1 (W2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- No host operation before the region writes an argument: each reaches the region, and the end, as launched. -/
theorem V1_arg (c : Dev nD) (b : Ref sig .tc) (hb : b ≠ main_v0 ∧ b ≠ main_v1 ∧ b ≠ main_v2 ∧ b ≠ main_v3) :
    V1 m c b = m ((c : Thread nD τ).loc b) :=
  StableHlo.after_of_forall_not_mem (b := Proc.devRef .tc b) hostOps0 (W0 m c) (List.forall_iff_forall_mem.mp (by
    obtain ⟨h0, h1, h2, h3⟩ := hb
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The unscoped buffers, one by one -/

/-- The TensorCore's nine unscoped buffers at contents `V`, listed. -/
theorem unscopedBufs_list (c : Dev nD) (V : (b : Ref sig .tc) → Buf (Elt F) ((c : Thread nD τ).loc b)) :
    (unscopedBufs c V : sProp 𝕄)
      = iprop((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v0) ↦{fullShare} V main_v0)
          ∗ (((c : Thread nD τ).loc main_v1) ↦{fullShare} V main_v1) ∗ (((c : Thread nD τ).loc main_v2) ↦{fullShare} V main_v2)
          ∗ (((c : Thread nD τ).loc main_v3) ↦{fullShare} V main_v3) ∗ (((c : Thread nD τ).loc main_v4) ↦{fullShare} V main_v4)
          ∗ (((c : Thread nD τ).loc main_v5) ↦{fullShare} V main_v5)) := by
  unfold unscopedBufs
  exact bigSep_eq_bigSepL_of_eq [main_arg0, main_arg1, main_arg2, main_v0, main_v1, main_v2, main_v3, main_v4, main_v5] (by decide) (by decide) _

/-- The shares the windows hold their arrays at. -/
theorem share_0 (c : Dev nD) : (dat0 (V1 m) c).share 0 = fullShare := rfl
theorem share_1 (c : Dev nD) : (dat0 (V1 m) c).share 1 = fullShare.left := rfl
theorem share_2 (c : Dev nD) : (dat0 (V1 m) c).share 2 = fullShare.right := rfl
theorem share_3 (c : Dev nD) : (dat0 (V1 m) c).share 3 = fullShare := rfl
theorem share_4 (c : Dev nD) : (dat0 (V1 m) c).share 4 = fullShare := rfl

/-- The pipeline's five arrays at contents `A`, window by window: whole buffers, the gate/up weight in two halves. -/
theorem arrays_list (c : Dev nD) (A : (w : Fin cfg0.W) → Buf (Elt F) ((cfg0.win w).arr.view.loc (c : Thread nD τ))) :
    ((dat0 (V1 m) c).arrays A : sProp 𝕄)
      = iprop((((c : Thread nD τ).loc main_v1) ↦{fullShare} A 0) ∗ (((c : Thread nD τ).loc main_v2) ↦{fullShare.left} A 1)
          ∗ (((c : Thread nD τ).loc main_v2) ↦{fullShare.right} A 2) ∗ (((c : Thread nD τ).loc main_v3) ↦{fullShare} A 3)
          ∗ (((c : Thread nD τ).loc main_v4) ↦{fullShare} A 4)) := by
  unfold Dat.arrays
  rw [bigSep_W0, (arr_whole0 0).set_eq_univ, (arr_whole0 1).set_eq_univ, (arr_whole0 3).set_eq_univ,
    (arr_whole0 4).set_eq_univ, share_0, share_1, share_2, share_3, share_4]

/-! ## The segments -/

/-- The prefetched tables' admissible contents: no table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)

/-- The two buffers the last reshape touches: the region's result and its own. -/
def tailS : Finset (DevRef τ sig) := {Proc.devRef .tc main_v4, Proc.devRef .tc main_v5}

/-- Those two held at a valuation, one by one. -/
theorem held_tail (c : Dev nD) (W : Valuation τ sig (Elt F)) :
    (StableHlo.held (c : Thread nD τ) tailS W : sProp 𝕄)
      = iprop((((c : Thread nD τ).loc main_v4) ↦{fullShare} W (Proc.devRef .tc main_v4)) ∗ (((c : Thread nD τ).loc main_v5) ↦{fullShare} W (Proc.devRef .tc main_v5))) := by
  unfold StableHlo.held tailS
  rw [BI.bigSep_insert (by rw [Finset.mem_singleton]; exact StableHlo.devRef_ne_of_ne (by decide)), BI.bigSep_singleton]
  rfl

/-- The three argument arrays as launched. -/
abbrev Args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))

theorem W2_v4 (c : Dev nD) : W2 m c (Proc.devRef .tc main_v4) = (dat0 (V1 m) c).arrAt 4 cfg0.N := W2_out m c
theorem W2_v5 (c : Dev nD) : W2 m c (Proc.devRef .tc main_v5) = V1 m c main_v5 := W2_of_ne m c main_v5 (by decide)

/-- The host lines before the region, over every unscoped buffer. -/
abbrev seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The reshape after the region, over the two buffers it touches; the arguments ride along. -/
abbrev seg1 : Pipeline.HostSeg (Name := ℕ) (U := UR sig nD τ) (pcfgs (F := F)) defs₀ 𝒱₀ L lv :=
  Pipeline.HostSeg.ofOps _ _ _ _ _ tailS hostOps1
    (fun op h => by
      simp only [hostOps1, List.mem_singleton] at h
      subst h
      exact subset_of_eq (StableHlo.reshape_bufs ..))
    (fun op h => (List.forall_iff_forall_mem.mp hostOps1_fresh) op h) (W2 m) (fun c => iprop(Args m c ∗ R c))

set_option backward.isDefEq.respectTransparency.types false in
/-- THE REGION: entered from every unscoped buffer at the entry contents — the windows' arrays into the pipeline (the
    gate/up weight split in halves), the generator register into the invariant, the other buffers bypassing — and left
    with the result array and the last reshape's buffer for the line after it, the arguments beside them. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) tailS (W2 m c) ∗ (Args m c ∗ R c))
  X c := iprop(∃ r, prngReg c r)
  Y c := iprop(∃ r, prngReg c r)
  Z c := iprop((((c : Thread nD τ).loc main_arg0) ↦{fullShare} V1 m c main_arg0) ∗ (((c : Thread nD τ).loc main_arg1) ↦{fullShare} V1 m c main_arg1)
          ∗ (((c : Thread nD τ).loc main_arg2) ↦{fullShare} V1 m c main_arg2) ∗ (((c : Thread nD τ).loc main_v5) ↦{fullShare} V1 m c main_v5))
  hentry c := by
    rw [Pipeline.ownSems0_none, ← Pipeline.unscopedBufs_held, unscopedBufs_list, show (pdats m 0 c) = dat0 (V1 m) c from rfl, arrays_list]
    have hhalf : ((((c : Thread nD τ).loc main_v2) ↦{fullShare} V1 m c main_v2) : sProp 𝕄)
        ⊢ iprop((((c : Thread nD τ).loc main_v2) ↦{fullShare.left} V1 m c main_v2) ∗ (((c : Thread nD τ).loc main_v2) ↦{fullShare.right} V1 m c main_v2)) :=
      (pointsTo_share (PosShare.mem_left_op_right fullShare)).1
    iintro ⟨⟨⟨Ha0, Ha1, Ha2, -, H1, H2, H3, H4, H5⟩, Hp, HO⟩, -, -⟩
    ihave Hs := hhalf $$ H2
    icases Hs with ⟨H2l, H2r⟩
    imodintro
    isplitl [H1 H2l H2r H3 H4]
    · isplitl [H1]; · iexact H1
      isplitl [H2l]; · iexact H2l
      isplitl [H2r]; · iexact H2r
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Ha2]; · iexact Ha2
    iexact H5
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi_out (V1 m) c).trans ?_
    unfold Pipeline.ΦA
    iintro ⟨Hr, Hp⟩
    isplitl [Hp]; · iexact Hp
    isplitr; · iempintro
    iexact Hr
  hexit c := by
    rw [show (pdats m 0 c) = dat0 (V1 m) c from rfl, arrays_list, held_tail, W2_v4, W2_v5,
      V1_arg m c main_arg0 (by decide), V1_arg m c main_arg1 (by decide), V1_arg m c main_arg2 (by decide)]
    iintro ⟨⟨-, -, -, -, H4⟩, HO, HY, ⟨Ha0, Ha1, Ha2, H5⟩⟩
    imodintro
    isplitl [H4 H5]
    · isplitl [H4]; · iexact H4
      iexact H5
    isplitl [Ha0 Ha1 Ha2]
    · isplitl [Ha0]; · iexact Ha0
      isplitl [Ha1]; · iexact Ha1
      iexact Ha2
    isplitl [HY]; · iexact HY
    unfold Pipeline.Dat.owesAt Pipeline.owesWithin
    icases HO with ⟨%W, -, HO⟩; iexists W; iexact HO

/-- @main's three segments in order. -/
abbrev segs : List (Pipeline.Seg (pcfgs (F := F)) adm (pdats m) () defs₀ 𝒱₀ L lv) :=
  [ .host (seg0 m), .region (reg0 m), .host (seg1 m) ]

/-- @main IS the run of the segments. -/
theorem main_run (c : Dev nD) : main (F := F) c = Pipeline.Seg.run (segs m) := (main_chain c).trans (by chain_rfl)

/-- The last thread state, without the `owes`: the reshape's two buffers at the final contents, the arguments as launched,
    the generator register at some state. -/
abbrev Tₙ (c : Dev nD) : sProp 𝕄 :=
  iprop(StableHlo.held (c : Thread nD τ) tailS (W3 m c) ∗ Args m c ∗ ∃ r, prngReg c r)

set_option backward.isDefEq.respectTransparency.types false in
/-- THE RUN: at the compiled mesh, from any memory with zero counters, every weakly fair execution of @main on the
    TensorCores terminates, nothing faulting, and every final state has the result buffer at the last reshape of what
    the region's write-backs leave, and the three arguments as launched. -/
theorem run_main (ρ : Dev nD → PrngReg) : θ_run defs (onTc (τ := τ) (main (F := F))) ⟨m, fun _ => 0, ρ⟩ (fun r => ∀ c : Dev nD,
      r.2.mem ((c.tc : Thread nD τ).loc main_v5) = W3 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show (iprop(StableHlo.held (c : Thread nD τ) tailS (W3 m c) ∗ (Args m c ∗ R c)) : sProp 𝕄) ⊢ _
      iintro ⟨Hh, Ha, Hp, HO⟩
      isplitr [HO]
      · isplitl [Hh]; · iexact Hh
        isplitl [Ha]; · iexact Ha
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v5) = W3 m c (Proc.devRef .tc main_v5)
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => by
      dsimp only [Tₙ]
      rw [held_tail]
      iintro ⟨⟨⟨-, H5⟩, ⟨Ha0, Ha1, Ha2⟩, -⟩, HSI⟩
      icombine HSI H5 gives %h5
      icombine HSI Ha0 gives %h0
      icombine HSI Ha1 gives %h1
      icombine HSI Ha2 gives %h2
      imodintro
      isplitr
      · ipureintro
        exact ⟨Buf.eq_of_forall_mem_univ h5, Buf.eq_of_forall_mem_univ h0, Buf.eq_of_forall_mem_univ h1, Buf.eq_of_forall_mem_univ h2⟩
      iexact HSI)
    (hQ := fun s h c => h c)

/-- What the last reshape leaves: the region's result array, reshaped to tokens × hidden. -/
theorem W3_v5 (c : Dev nD) :
    W3 m c (Proc.devRef .tc main_v5)
      = shapeCast S16384x4096 ((dat0 (V1 m) c).arrAt 4 cfg0.N : FVec F S8x2048x4096 .f32) shapeCasts_S8x2048x4096_S16384x4096 := by
  show StableHlo.after hostOps1 (W2 m c) (Proc.devRef .tc main_v5) = _
  after_results
  rw [W2_v4]
  rfl

end Cert.KernelIdeal.Hand

end
-- ==== Proof.KI.Payload.lean ====
/-
  The kernel body's three payloads read at an index, at the ideal instance.

  One grid step multiplies a tile of 256 token rows by a 4096 × 256 tile of the gate weight and by the matching tile of the
  up weight, forms `up · (gate · logistic gate)` on the 256 × 256 result, multiplies that by a 256 × 4096 tile of the down
  weight and adds the product to the running accumulator. The first payload is the zero the accumulator starts from, the
  second the accumulator's update, the third the accumulator handed to the output block.
-/
import proofs.«142885_j90031104459227_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The specification of one tile -/

/-- one entry of a tile's gate (or up) projection: token row r of the tile against column k of the weight tile -/
def tileProj (x : FVec Ideal S1x256x4096 .bf16) (w : FVec Ideal S1x4096x256 .bf16) (r k : Fin 256) : EReal :=
  ∑ j : Fin 4096, x (ix3 (0 : Fin 1) r j) * w (ix3 (0 : Fin 1) j k)

/-- the tile's activation entry -/
def tileAct (x : FVec Ideal S1x256x4096 .bf16) (gt up : FVec Ideal S1x4096x256 .bf16) (r k : Fin 256) : EReal :=
  tileProj x up r k * (tileProj x gt r k * Ideal.logistic (tileProj x gt r k))

/-! ## The operand indices of the two matrix products, axis by axis -/

theorem lhsA_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhsA_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhsA_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhsA_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

theorem lhsB_0 (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide), dif_pos (show (0 : Fin S256x256.rank) ∈ dot_S256x256_S256x4096_S256x4096_1_0_0_1_n_n.lhsNonContracting by decide)]
  rfl
theorem lhsB_1 (i : S256x4096.Idx) (q : dot_S256x256_S256x4096_S256x4096_1_0_0_1_n_n.contr.Idx) :
    (dot_S256x256_S256x4096_S256x4096_1_0_0_1_n_n.lhsIdx i q 1).val = (q ⟨0, by decide⟩).val :=
  dot_S256x256_S256x4096_S256x4096_1_0_0_1_n_n.lhsIdx_val_of_single rfl i q
theorem rhsB_0 (i : S256x4096.Idx) (q : dot_S256x256_S256x4096_S256x4096_1_0_0_1_n_n.contr.Idx) :
    (dot_S256x256_S256x4096_S256x4096_1_0_0_1_n_n.rhsIdx i q 0).val = (q ⟨0, by decide⟩).val :=
  dot_S256x256_S256x4096_S256x4096_1_0_0_1_n_n.rhsIdx_val_of_single rfl i q
theorem rhsB_1 (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide), dif_pos (show (1 : Fin S256x4096.rank) ∈ dot_S256x256_S256x4096_S256x4096_1_0_0_1_n_n.rhsNonContracting by decide)]
  rfl

/-! ## The matrix products into a zero accumulator, at an index -/

/-- A 256 × 4096 by 4096 × 256 product into zero is the sum over the 4096 contraction positions. -/
theorem matmulA_apply (l : FVec Ideal S256x4096 .bf16) (r : FVec Ideal S4096x256 .bf16) (p : Fin 256) (q : Fin 256) :
    matmul dot_S256x4096_S4096x256_S256x256_1_0_0_1_n_n none l r (constant (F := Ideal) S256x256 .f32 0x00000000#32) (ix2 p q)
      = ∑ j : Fin 4096, l (ix2 p j) * r (ix2 j q) := by
  simp only [matmul]
  rw [Ideal.matmul_constant_zero_apply, ← Equiv.sum_comp (contrEquiv1 dot_S256x4096_S4096x256_S256x256_1_0_0_1_n_n 4096 rfl rfl).symm]
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q) ((contrEquiv1 dot_S256x4096_S4096x256_S256x256_1_0_0_1_n_n 4096 rfl rfl).symm k) = ix2 p k := funext fun a => Fin.ext (by
    match a with
    | ⟨0, _⟩ => exact lhsA_0 _ _
    | ⟨1, _⟩ => exact (lhsA_1 _ _).trans hk)
  have er : dot_S256x4096_S4096x256_S256x256_1_0_0_1_n_n.rhsIdx (ix2 p q) ((contrEquiv1 dot_S256x4096_S4096x256_S256x256_1_0_0_1_n_n 4096 rfl rfl).symm k) = ix2 k q := funext fun a => Fin.ext (by
    match a with
    | ⟨0, _⟩ => exact (rhsA_0 _ _).trans hk
    | ⟨1, _⟩ => exact rhsA_1 _ _)
  rw [el, er]

/-- A 256 × 256 by 256 × 4096 product into zero is the sum over the 256 contraction positions. -/
theorem matmulB_apply (l : FVec Ideal S256x256 .bf16) (r : FVec Ideal S256x4096 .bf16) (p : Fin 256) (q : Fin 4096) :
    matmul dot_S256x256_S256x4096_S256x4096_1_0_0_1_n_n none l r (constant (F := Ideal) S256x4096 .f32 0x00000000#32) (ix2 p q)
      = ∑ j : Fin 256, l (ix2 p j) * r (ix2 j q) := by
  simp only [matmul]
  rw [Ideal.matmul_constant_zero_apply, ← Equiv.sum_comp (contrEquiv1 dot_S256x256_S256x4096_S256x4096_1_0_0_1_n_n 256 rfl rfl).symm]
  refine Finset.sum_congr rfl fun k _ => ?_
  have hk := contrEquiv1_symm_val dot_S256x256_S256x4096_S256x4096_1_0_0_1_n_n 256 rfl rfl k
  have el : dot_S256x256_S256x4096_S256x4096_1_0_0_1_n_n.lhsIdx (ix2 p q) ((contrEquiv1 dot_S256x256_S256x4096_S256x4096_1_0_0_1_n_n 256 rfl rfl).symm k) = ix2 p k := funext fun a => Fin.ext (by
    match a with
    | ⟨0, _⟩ => exact lhsB_0 _ _
    | ⟨1, _⟩ => exact (lhsB_1 _ _).trans hk)
  have er : dot_S256x256_S256x4096_S256x4096_1_0_0_1_n_n.rhsIdx (ix2 p q) ((contrEquiv1 dot_S256x256_S256x4096_S256x4096_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-! ## The payloads -/

/-- The logistic of an array, read at an index, is the logistic of the entry. -/
theorem logistic_apply {s : Shape} {φ : FTy} (v : FVec Ideal s φ) (i : s.Idx) : logistic v i = Ideal.logistic (v i) := rfl

/-- The accumulator starts at zero. -/
theorem pay1_apply (i : S256x4096.Idx) : (k0_pay1 (F := Ideal)) i = (0 : EReal) := by
  unfold k0_pay1
  rw [shapeCast_self]
  exact Ideal.ofBits_zero_f32

/-- A tile's projection is the first kind of product of the tiles with their unit axis dropped. -/
theorem proj_apply (x : FVec Ideal S1x256x4096 .bf16) (w : FVec Ideal S1x4096x256 .bf16) (r k : Fin 256) :
    matmul dot_S256x4096_S4096x256_S256x256_1_0_0_1_n_n none (shapeCast S256x4096 x shapeCasts_S1x256x4096_S256x4096)
        (shapeCast S4096x256 w shapeCasts_S1x4096x256_S4096x256) (constant (F := Ideal) S256x256 .f32 0x00000000#32) (ix2 r k)
      = tileProj x w r k := by
  refine (matmulA_apply _ _ r k).trans ?_
  unfold tileProj
  refine Finset.sum_congr rfl fun j _ => ?_
  rw [shapeCast_1ab_ab_apply, shapeCast_1ab_ab_apply]

/-- The accumulator's update: the accumulator plus the tile's activation times the down tile. -/
theorem pay2_apply (x : FVec Ideal S1x256x4096 .bf16) (gt up : FVec Ideal S1x4096x256 .bf16) (a : FVec Ideal S256x4096 .f32)
    (dn : FVec Ideal S1x256x4096 .bf16) (r : Fin 256) (h : Fin 4096) :
    k0_pay2 (F := Ideal) x gt up a dn (ix2 r h)
      = a (ix2 r h) + ∑ k : Fin 256, tileAct x gt up r k * dn (ix3 (0 : Fin 1) k h) := by
  unfold k0_pay2
  rw [shapeCast_self, addf_apply]
  refine congrArg (a (ix2 r h) + ·) ?_
  refine (matmulB_apply _ _ r h).trans ?_
  refine Finset.sum_congr rfl fun k _ => ?_
  rw [shapeCast_1ab_ab_apply, truncf_apply, mulf_apply, mulf_apply, logistic_apply, proj_apply, proj_apply]
  rfl

/-- The output block is the accumulator with a unit axis in front. -/
theorem pay3_apply (v : FVec Ideal S256x4096 .f32) (r : Fin 256) (h : Fin 4096) :
    k0_pay3 (F := Ideal) v (ix3 (0 : Fin 1) r h) = v (ix2 r h) := by
  unfold k0_pay3
  exact shapeCast_ab_1ab_apply v shapeCasts_S256x4096_S1x256x4096 (0 : Fin 1) r h

end Cert.KernelIdeal.Pay

end
-- ==== Proof.Spec.lean ====
/-
  The mathematics both programs compute, stated once over the argument arrays at the ideal instance.

  Tokens are pre-sorted by expert: token row `T = e * 2048 + t` belongs to expert `e`. For that row the
  gate/up projection is one matrix product against the expert's `4096 × 8192` weight, whose first 4096 columns
  are the gate and whose last 4096 columns are the up projection; the activation is `up · (gate · logistic gate)`
  (SwiGLU), and the result row is the activation times the expert's `4096 × 4096` down projection.
-/
import Idealize.ShloMosaic.Lib.ValueIdx
import Idealize.ShloMosaic.PureOps.Ideal.Laws

noncomputable section

open scoped BigOperators

namespace Cert.Moe

open Idealize.ShloMosaic Idealize.ShloMosaic.ValueIdx

/-- tokens × hidden -/
abbrev SX : Shape := ⟨2, ![16384, 4096]⟩
/-- experts × hidden × (gate columns ++ up columns) -/
abbrev SGU : Shape := ⟨3, ![8, 4096, 8192]⟩
/-- experts × intermediate × hidden -/
abbrev SDN : Shape := ⟨3, ![8, 4096, 4096]⟩

/-- The token row of expert `e`'s `t`-th token. -/
def tok (e : Fin 8) (t : Fin 2048) : Fin 16384 := ⟨e.val * 2048 + t.val, by omega⟩

/-- Column `f` of the gate half. -/
def gateCol (f : Fin 4096) : Fin 8192 := ⟨f.val, by omega⟩
/-- Column `f` of the up half. -/
def upCol (f : Fin 4096) : Fin 8192 := ⟨4096 + f.val, by omega⟩

/-- One entry of the gate/up projection: the token's row against column `col` of its expert's weight. -/
def proj (x : FVec Ideal SX .f32) (gu : FVec Ideal SGU .f32) (e : Fin 8) (t : Fin 2048) (col : Fin 8192) : EReal :=
  ∑ j : Fin 4096, x (ix2 (tok e t) j) * gu (ix3 e j col)

/-- The SwiGLU activation: `up · (gate · logistic gate)`. -/
def act (x : FVec Ideal SX .f32) (gu : FVec Ideal SGU .f32) (e : Fin 8) (t : Fin 2048) (f : Fin 4096) : EReal :=
  proj x gu e t (upCol f) * (proj x gu e t (gateCol f) * Ideal.logistic (proj x gu e t (gateCol f)))

/-- One entry of the result: the activation row against column `h` of the expert's down projection. -/
def out (x : FVec Ideal SX .f32) (gu : FVec Ideal SGU .f32) (dn : FVec Ideal SDN .f32)
    (e : Fin 8) (t : Fin 2048) (h : Fin 4096) : EReal :=
  ∑ f : Fin 4096, act x gu e t f * dn (ix3 e f h)

/-- The whole result array, tokens × hidden. -/
def G (x : FVec Ideal SX .f32) (gu : FVec Ideal SGU .f32) (dn : FVec Ideal SDN .f32) : FVec Ideal SX .f32 := fun i =>
  out x gu dn ⟨(i 0).val / 2048, by have := idx2_lt0 i; omega⟩ ⟨(i 0).val % 2048, Nat.mod_lt _ (by decide)⟩
    ⟨(i 1).val, idx2_lt1 i⟩

end Cert.Moe

end
-- ==== Proof.KI.AccValue.lean ====
/-
  What the kernel's accumulator holds at the last intermediate tile of each (expert, token tile) pair, at the ideal
  instance, in the specification's terms.

  Point `t` of the grid is (expert `t / 128`, token tile `t / 16 % 8`, intermediate tile `t % 16`). Each window's block
  at a point is a rectangle of its array (the block index times the block's extent plus the coordinate inside the
  block), so one point adds to the accumulator's entry `(r, h)` the sum over the tile's 256 intermediate columns `f` of
  `act(token, f) · down(f, h)`. The accumulator is reset at tile 0, so after tile `i` it holds the sum of the shares of
  tiles `0 … i` (induction on the point), and after tile 15 the sum over all 4096 intermediate columns: the
  specification's result entry.
-/
import proofs.«142885_j90031104459227_1_alg».proof.Proof.KI.Data
import proofs.«142885_j90031104459227_1_alg».proof.Proof.KI.Payload
import proofs.«142885_j90031104459227_1_alg».proof.Proof.Spec
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen Cert.KernelIdeal.Pay
open Idealize.ShloMosaic Idealize.ShloMosaic.TcCoe Idealize.ShloMosaic.ValueIdx Idealize.SL.Sem

/-! ## Which block each window holds at a point

Point `t` of the grid is (expert `t / 128`, token tile `t / 16 % 8`, intermediate tile `t % 16`). The index maps,
decided once over the grid. -/

/-- The token window: block (expert, token tile, 0). -/
theorem idx0 : ∀ t : Fin cfg0.N, win0_0.index t (0 : Fin 3) = t.val / 128 ∧ win0_0.index t (1 : Fin 3) = t.val / 16 % 8 ∧ win0_0.index t (2 : Fin 3) = 0 :=
  (by decide +kernel : ∀ t : Fin grid0.N, win0_0.index t (0 : Fin 3) = t.val / 128 ∧ win0_0.index t (1 : Fin 3) = t.val / 16 % 8 ∧ win0_0.index t (2 : Fin 3) = 0)
/-- The gate window: block (expert, 0, intermediate tile). -/
theorem idx1 : ∀ t : Fin cfg0.N, win0_1.index t (0 : Fin 3) = t.val / 128 ∧ win0_1.index t (1 : Fin 3) = 0 ∧ win0_1.index t (2 : Fin 3) = t.val % 16 :=
  (by decide +kernel : ∀ t : Fin grid0.N, win0_1.index t (0 : Fin 3) = t.val / 128 ∧ win0_1.index t (1 : Fin 3) = 0 ∧ win0_1.index t (2 : Fin 3) = t.val % 16)
/-- The up window: block (expert, 0, 16 + intermediate tile) of the same array. -/
theorem idx2 : ∀ t : Fin cfg0.N, win0_2.index t (0 : Fin 3) = t.val / 128 ∧ win0_2.index t (1 : Fin 3) = 0 ∧ win0_2.index t (2 : Fin 3) = 16 + t.val % 16 :=
  (by decide +kernel : ∀ t : Fin grid0.N, win0_2.index t (0 : Fin 3) = t.val / 128 ∧ win0_2.index t (1 : Fin 3) = 0 ∧ win0_2.index t (2 : Fin 3) = 16 + t.val % 16)
/-- The down window: block (expert, intermediate tile, 0). -/
theorem idx3 : ∀ t : Fin cfg0.N, win0_3.index t (0 : Fin 3) = t.val / 128 ∧ win0_3.index t (1 : Fin 3) = t.val % 16 ∧ win0_3.index t (2 : Fin 3) = 0 :=
  (by decide +kernel : ∀ t : Fin grid0.N, win0_3.index t (0 : Fin 3) = t.val / 128 ∧ win0_3.index t (1 : Fin 3) = t.val % 16 ∧ win0_3.index t (2 : Fin 3) = 0)

/-! ## Sixteen tiles of 256 are the 4096 intermediate columns -/

/-- A sum over the tiles of the sums inside each tile is the sum over all columns: column `f = i * 256 + k`. -/
theorem sum_tiles {M : Type*} [AddCommMonoid M] (g : Fin 4096 → M) :
    ∑ i ∈ Finset.range 16, (if hi : i < 16 then ∑ k : Fin 256, g ⟨i * 256 + k.val, by have := k.isLt; omega⟩ else 0)
      = ∑ f : Fin 4096, g f := by
  rw [← Fin.sum_univ_eq_sum_range (fun i => if hi : i < 16 then ∑ k : Fin 256, g ⟨i * 256 + k.val, by have := k.isLt; omega⟩ else 0) 16,
    ← Equiv.sum_comp (finProdFinEquiv : Fin 16 × Fin 256 ≃ Fin 4096) g, Fintype.sum_prod_type]
  refine Finset.sum_congr rfl fun i _ => ?_
  rw [dif_pos i.isLt]
  refine Finset.sum_congr rfl fun k _ => congrArg g (Fin.ext ?_)
  show i.val * 256 + k.val = k.val + 256 * i.val
  omega

section Entry
variable (V : (c : Dev nD) → (b : Ref sig .tc) → Buf (Elt Ideal) ((c : Thread nD τ).loc b))

/-! ## The blocks as entries of their arrays

A block's coordinate is the block index times the block's extent plus the coordinate inside the block. -/

/-- Row `r` of the token tile is token `tile * 256 + r` of the expert. -/
theorem xblk_apply (c : Dev nD) (t : Fin cfg0.N) (r : Fin 256) (j : Fin 4096) (e : Fin 8) (tk : Fin 2048)
    (he : e.val = t.val / 128) (htk : tk.val = t.val / 16 % 8 * 256 + r.val) :
    xblk (F := Ideal) V c t (ix3 (0 : Fin 1) r j) = (V c main_v1 : FVec Ideal S8x2048x4096 .bf16) (ix3 e tk j) := by
  obtain ⟨h0, h1, h2⟩ := idx0 t
  unfold xblk iblk
  rw [View.read_apply]
  show (V c main_v1 : FVec Ideal S8x2048x4096 .bf16) (((cfg0.win 0).blk t).view.emb (ix3 (0 : Fin 1) r j)) = _
  refine congrArg _ (funext fun a => Fin.ext ?_)
  match a with
  | ⟨0, _⟩ => show win0_0.index t 0 * 1 + 1 * 0 = e.val; rw [h0, he]; omega
  | ⟨1, _⟩ => show win0_0.index t 1 * 256 + 1 * r.val = tk.val; rw [h1, htk]; omega
  | ⟨2, _⟩ => show win0_0.index t 2 * 4096 + 1 * j.val = j.val; rw [h2]; omega

/-- Column `k` of the gate tile is column `tile * 256 + k` of the expert's weight. -/
theorem gblk_apply (c : Dev nD) (t : Fin cfg0.N) (j : Fin 4096) (k : Fin 256) (e : Fin 8) (col : Fin 8192)
    (he : e.val = t.val / 128) (hcol : col.val = t.val % 16 * 256 + k.val) :
    gblk (F := Ideal) V c t (ix3 (0 : Fin 1) j k) = (V c main_v2 : FVec Ideal S8x4096x8192 .bf16) (ix3 e j col) := by
  obtain ⟨h0, h1, h2⟩ := idx1 t
  unfold gblk iblk
  rw [View.read_apply]
  show (V c main_v2 : FVec Ideal S8x4096x8192 .bf16) (((cfg0.win 1).blk t).view.emb (ix3 (0 : Fin 1) j k)) = _
  refine congrArg _ (funext fun a => Fin.ext ?_)
  match a with
  | ⟨0, _⟩ => show win0_1.index t 0 * 1 + 1 * 0 = e.val; rw [h0, he]; omega
  | ⟨1, _⟩ => show win0_1.index t 1 * 4096 + 1 * j.val = j.val; rw [h1]; omega
  | ⟨2, _⟩ => show win0_1.index t 2 * 256 + 1 * k.val = col.val; rw [h2, hcol]; omega

/-- Column `k` of the up tile is column `4096 + tile * 256 + k` of the same weight. -/
theorem ublk_apply (c : Dev nD) (t : Fin cfg0.N) (j : Fin 4096) (k : Fin 256) (e : Fin 8) (col : Fin 8192)
    (he : e.val = t.val / 128) (hcol : col.val = 4096 + (t.val % 16 * 256 + k.val)) :
    ublk (F := Ideal) V c t (ix3 (0 : Fin 1) j k) = (V c main_v2 : FVec Ideal S8x4096x8192 .bf16) (ix3 e j col) := by
  obtain ⟨h0, h1, h2⟩ := idx2 t
  unfold ublk iblk
  rw [View.read_apply]
  show (V c main_v2 : FVec Ideal S8x4096x8192 .bf16) (((cfg0.win 2).blk t).view.emb (ix3 (0 : Fin 1) j k)) = _
  refine congrArg _ (funext fun a => Fin.ext ?_)
  match a with
  | ⟨0, _⟩ => show win0_2.index t 0 * 1 + 1 * 0 = e.val; rw [h0, he]; omega
  | ⟨1, _⟩ => show win0_2.index t 1 * 4096 + 1 * j.val = j.val; rw [h1]; omega
  | ⟨2, _⟩ => show win0_2.index t 2 * 256 + 1 * k.val = col.val; rw [h2, hcol]; omega

/-- Row `k` of the down tile is row `tile * 256 + k` of the expert's down weight. -/
theorem dblk_apply (c : Dev nD) (t : Fin cfg0.N) (k : Fin 256) (h : Fin 4096) (e : Fin 8) (f : Fin 4096)
    (he : e.val = t.val / 128) (hf : f.val = t.val % 16 * 256 + k.val) :
    dblk (F := Ideal) V c t (ix3 (0 : Fin 1) k h) = (V c main_v3 : FVec Ideal S8x4096x4096 .bf16) (ix3 e f h) := by
  obtain ⟨h0, h1, h2⟩ := idx3 t
  unfold dblk iblk
  rw [View.read_apply]
  show (V c main_v3 : FVec Ideal S8x4096x4096 .bf16) (((cfg0.win 3).blk t).view.emb (ix3 (0 : Fin 1) k h)) = _
  refine congrArg _ (funext fun a => Fin.ext ?_)
  match a with
  | ⟨0, _⟩ => show win0_3.index t 0 * 1 + 1 * 0 = e.val; rw [h0, he]; omega
  | ⟨1, _⟩ => show win0_3.index t 1 * 256 + 1 * k.val = f.val; rw [h1, hf]; omega
  | ⟨2, _⟩ => show win0_3.index t 2 * 4096 + 1 * h.val = h.val; rw [h2]; omega

/-! ## One tile's contribution, in the specification's terms -/

section Spec
variable (X : FVec Ideal Cert.Moe.SX .f32) (GU : FVec Ideal Cert.Moe.SGU .f32) (DN : FVec Ideal Cert.Moe.SDN .f32)

/-- A tile's gate projection is the specification's projection onto gate column `tile * 256 + k`. -/
theorem tileProj_gate (c : Dev nD)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (t : Fin cfg0.N) (r k : Fin 256) (e : Fin 8) (tk : Fin 2048) (f : Fin 4096)
    (he : e.val = t.val / 128) (htk : tk.val = t.val / 16 % 8 * 256 + r.val) (hf : f.val = t.val % 16 * 256 + k.val) :
    tileProj (xblk (F := Ideal) V c t) (gblk (F := Ideal) V c t) r k = Cert.Moe.proj X GU e tk (Cert.Moe.gateCol f) := by
  unfold tileProj Cert.Moe.proj
  refine Finset.sum_congr rfl fun j _ => ?_
  rw [xblk_apply V c t r j e tk he htk, gblk_apply V c t j k e (Cert.Moe.gateCol f) he hf, hx, hgu]

/-- A tile's up projection is the specification's projection onto up column `tile * 256 + k`. -/
theorem tileProj_up (c : Dev nD)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (t : Fin cfg0.N) (r k : Fin 256) (e : Fin 8) (tk : Fin 2048) (f : Fin 4096)
    (he : e.val = t.val / 128) (htk : tk.val = t.val / 16 % 8 * 256 + r.val) (hf : f.val = t.val % 16 * 256 + k.val) :
    tileProj (xblk (F := Ideal) V c t) (ublk (F := Ideal) V c t) r k = Cert.Moe.proj X GU e tk (Cert.Moe.upCol f) := by
  unfold tileProj Cert.Moe.proj
  refine Finset.sum_congr rfl fun j _ => ?_
  rw [xblk_apply V c t r j e tk he htk, ublk_apply V c t j k e (Cert.Moe.upCol f) he (congrArg (4096 + ·) hf), hx, hgu]

/-- A tile's activation entry is the specification's at intermediate column `tile * 256 + k`. -/
theorem tileAct_eq (c : Dev nD)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (t : Fin cfg0.N) (r k : Fin 256) (e : Fin 8) (tk : Fin 2048) (f : Fin 4096)
    (he : e.val = t.val / 128) (htk : tk.val = t.val / 16 % 8 * 256 + r.val) (hf : f.val = t.val % 16 * 256 + k.val) :
    tileAct (xblk (F := Ideal) V c t) (gblk (F := Ideal) V c t) (ublk (F := Ideal) V c t) r k = Cert.Moe.act X GU e tk f := by
  unfold tileAct Cert.Moe.act
  rw [tileProj_gate V X GU c hx hgu t r k e tk f he htk hf, tileProj_up V X GU c hx hgu t r k e tk f he htk hf]

/-- Intermediate tile `i`'s share of one result entry: the activation against the down weight, summed over the tile's
    256 columns (zero past the sixteenth tile). -/
def tileTerm (e : Fin 8) (tk : Fin 2048) (h : Fin 4096) (i : ℕ) : EReal :=
  if hi : i < 16 then
    ∑ k : Fin 256, Cert.Moe.act X GU e tk ⟨i * 256 + k.val, by have := k.isLt; omega⟩
      * DN (ix3 e (⟨i * 256 + k.val, by have := k.isLt; omega⟩ : Fin 4096) h)
  else 0

/-- What a point adds to the accumulator is its tile's share. -/
theorem tile_contrib (c : Dev nD)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (hdn : ∀ (e : Fin 8) (f : Fin 4096) (h : Fin 4096), (V c main_v3 : FVec Ideal S8x4096x4096 .bf16) (ix3 e f h) = DN (ix3 e f h))
    (t : Fin cfg0.N) (r : Fin 256) (h : Fin 4096) (e : Fin 8) (tk : Fin 2048)
    (he : e.val = t.val / 128) (htk : tk.val = t.val / 16 % 8 * 256 + r.val) :
    ∑ k : Fin 256, tileAct (xblk (F := Ideal) V c t) (gblk (F := Ideal) V c t) (ublk (F := Ideal) V c t) r k
        * dblk (F := Ideal) V c t (ix3 (0 : Fin 1) k h)
      = tileTerm X GU DN e tk h (t.val % 16) := by
  have hi : t.val % 16 < 16 := Nat.mod_lt _ (by decide)
  unfold tileTerm
  rw [dif_pos hi]
  refine Finset.sum_congr rfl fun k _ => ?_
  rw [tileAct_eq V X GU c hx hgu t r k e tk ⟨t.val % 16 * 256 + k.val, by have := k.isLt; omega⟩ he htk rfl,
    dblk_apply V c t k h e ⟨t.val % 16 * 256 + k.val, by have := k.isLt; omega⟩ he rfl, hdn]

/-! ## The accumulator after a point: the shares of the tiles so far -/

/-- After point `n` the accumulator's entry `(r, h)` is the sum of the shares of intermediate tiles `0 … n % 16` of
    the point's expert and token row: by induction on the point (the points since the last first tile share both). -/
theorem acc_partial (c : Dev nD)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (hdn : ∀ (e : Fin 8) (f : Fin 4096) (h : Fin 4096), (V c main_v3 : FVec Ideal S8x4096x4096 .bf16) (ix3 e f h) = DN (ix3 e f h)) :
    ∀ (n : ℕ) (hn : n < cfg0.N) (r : Fin 256) (h : Fin 4096) (e : Fin 8) (tk : Fin 2048),
      e.val = n / 128 → tk.val = n / 16 % 8 * 256 + r.val →
      accAt (F := Ideal) V c n hn (ix2 r h) = ∑ i ∈ Finset.range (n % 16 + 1), tileTerm X GU DN e tk h i := by
  intro n
  induction n with
  | zero =>
    intro hn r h e tk he htk
    refine (congrFun (accAt_first V c ⟨0, hn⟩ rfl) (ix2 r h)).trans ?_
    refine (pay2_apply _ _ _ _ _ r h).trans ?_
    rw [pay1_apply, zero_add]
    refine (tile_contrib V X GU DN c hx hgu hdn ⟨0, hn⟩ r h e tk he htk).trans ?_
    exact (Finset.sum_range_one _).symm
  | succ n ih =>
    intro hn r h e tk he htk
    by_cases h0 : (n + 1) % 16 = 0
    · refine (congrFun (accAt_first V c ⟨n + 1, hn⟩ h0) (ix2 r h)).trans ?_
      refine (pay2_apply _ _ _ _ _ r h).trans ?_
      rw [pay1_apply, zero_add]
      refine (tile_contrib V X GU DN c hx hgu hdn ⟨n + 1, hn⟩ r h e tk he htk).trans ?_
      show tileTerm X GU DN e tk h ((n + 1) % 16) = _
      rw [h0]
      exact (Finset.sum_range_one _).symm
    · have hm : (n + 1) % 16 = n % 16 + 1 := by omega
      refine (congrFun (accAt_next V c ⟨n + 1, hn⟩ h0) (ix2 r h)).trans ?_
      refine (pay2_apply _ _ _ _ _ r h).trans ?_
      rw [hm, Finset.sum_range_succ]
      refine congrArg₂ (· + ·) (ih (Nat.lt_of_succ_lt hn) r h e tk (by omega) (by omega)) ?_
      refine (tile_contrib V X GU DN c hx hgu hdn ⟨n + 1, hn⟩ r h e tk he htk).trans ?_
      show tileTerm X GU DN e tk h ((n + 1) % 16) = _
      rw [hm]

end Spec

/-! ## At a last tile: the specification's result entry -/

/-- THE ACCUMULATOR AT A LAST TILE: entry `(r, h)` after a point with intermediate tile 15 is the specification's result
    for the point's expert, token `tile * 256 + r` and hidden column `h`. -/
theorem acc_last (c : Dev nD) (X : FVec Ideal Cert.Moe.SX .f32) (GU : FVec Ideal Cert.Moe.SGU .f32) (DN : FVec Ideal Cert.Moe.SDN .f32)
    (hx : ∀ (e : Fin 8) (tk : Fin 2048) (j : Fin 4096), (V c main_v1 : FVec Ideal S8x2048x4096 .bf16) (ix3 e tk j) = X (ix2 (Cert.Moe.tok e tk) j))
    (hgu : ∀ (e : Fin 8) (j : Fin 4096) (col : Fin 8192), (V c main_v2 : FVec Ideal S8x4096x8192 .bf16) (ix3 e j col) = GU (ix3 e j col))
    (hdn : ∀ (e : Fin 8) (f : Fin 4096) (h : Fin 4096), (V c main_v3 : FVec Ideal S8x4096x4096 .bf16) (ix3 e f h) = DN (ix3 e f h))
    (t : Fin cfg0.N) (ht : t.val % 16 = 15) (r : Fin 256) (h : Fin 4096) :
    accAt (F := Ideal) V c t.val t.isLt (ix2 r h)
      = Cert.Moe.out X GU DN ⟨t.val / 128, by have := t.isLt; have hN : cfg0.N = 1024 := N_0; omega⟩
          ⟨t.val / 16 % 8 * 256 + r.val, by have := r.isLt; omega⟩ h := by
  rw [acc_partial V X GU DN c hx hgu hdn t.val t.isLt r h
    ⟨t.val / 128, by have := t.isLt; have hN : cfg0.N = 1024 := N_0; omega⟩
    ⟨t.val / 16 % 8 * 256 + r.val, by have := r.isLt; omega⟩ rfl rfl, ht]
  unfold Cert.Moe.out tileTerm
  exact sum_tiles (M := EReal) fun f => Cert.Moe.act X GU _ _ f * DN (ix3 _ f h)

end Entry

end Cert.KernelIdeal.Hand

end
-- ==== Proof.KI.OutArray.lean ====
/-
  From the accumulator at the last intermediate tile of each (expert, token tile) pair to the kernel's output array.

  The output window's block at point t is (expert t / 128, token tile t / 16 % 8, all 4096 hidden columns); it is written
  back exactly at the points t ≡ 15 (mod 16), where it holds the accumulator with a unit axis in front. These 64 blocks tile
  the [8, 2048, 4096] array, so if every last-tile accumulator holds the matching 256 rows of one function O of
  (expert, token, hidden column), the array ends holding O everywhere.
-/
import proofs.«142885_j90031104459227_1_alg».proof.Proof.KI.Data
import proofs.«142885_j90031104459227_1_alg».proof.Proof.KI.Payload
import Idealize.ShloMosaic.Lib.ValueIdx
import Idealize.ShloMosaic.Lib.Pipeline.Value

set_option maxRecDepth 16384

noncomputable section

namespace Cert.KernelIdeal.Hand

open Cert.KernelIdeal Cert.KernelIdeal.Gen Cert.KernelIdeal.Pay
open Idealize.ShloMosaic Idealize.ShloMosaic.TcCoe Idealize.ShloMosaic.ValueIdx
open Idealize.SL.Sem
open Idealize.ShloMosaic.Pipeline (Dat Cfg Window)

/-! ## From the last tile's accumulator to the output array -/

/-- The output window's block index at a point, decided over the grid: (expert, token tile, 0). -/
theorem out_idx : ∀ t : Fin cfg0.N, win0_4.index t (0 : Fin 3) = t.val / 128
    ∧ win0_4.index t (1 : Fin 3) = t.val / 16 % 8 ∧ win0_4.index t (2 : Fin 3) = 0 :=
  (by decide +kernel : ∀ t : Fin grid0.N, win0_4.index t (0 : Fin 3) = t.val / 128
    ∧ win0_4.index t (1 : Fin 3) = t.val / 16 % 8 ∧ win0_4.index t (2 : Fin 3) = 0)

/-- A function of (expert, token, hidden coordinate) as contents of the output array. -/
def GK (O : Fin 8 → Fin 2048 → Fin 4096 → EReal) : FVec Ideal S8x2048x4096 .f32 :=
  fun i => O ⟨(i 0).val, (i 0).isLt⟩ ⟨(i 1).val, (i 1).isLt⟩ ⟨(i 2).val, (i 2).isLt⟩

theorem GK_apply (O : Fin 8 → Fin 2048 → Fin 4096 → EReal) (e : Fin 8) (tk : Fin 2048) (h : Fin 4096) :
    GK O (ix3 e tk h) = O e tk h := rfl

/-- A function of three bounded coordinates depends only on their values. -/
theorem O_congr (O : Fin 8 → Fin 2048 → Fin 4096 → EReal) {a a' : Fin 8} {b b' : Fin 2048} {d d' : Fin 4096}
    (h0 : a.val = a'.val) (h1 : b.val = b'.val) (h2 : d.val = d'.val) : O a b d = O a' b' d' := by
  rw [Fin.ext h0, Fin.ext h1, Fin.ext h2]

variable (V : (c : Dev nD) → (b : Ref sig .tc) → Buf (Elt Ideal) ((c : Thread nD τ).loc b))

/-- One entry of the block a last-tile point hands to the output: the accumulator's entry, which is the array
    function's at the entry's place in the array — row `token tile × 256 + row in the tile` of expert `t / 128`. -/
theorem out_entry (c : Dev nD) (O : Fin 8 → Fin 2048 → Fin 4096 → EReal)
    (hacc : ∀ (t : Fin cfg0.N), t.val % 16 = 15 → ∀ (r : Fin 256) (h : Fin 4096),
      accAt (F := Ideal) V c t.val t.isLt (ix2 r h)
        = O ⟨t.val / 128, by have := t.isLt; have hN : cfg0.N = 1024 := N_0; omega⟩ ⟨t.val / 16 % 8 * 256 + r.val, by have := r.isLt; omega⟩ h)
    (t : Fin cfg0.N) (ht : t.val % 16 = 15) (y : S1x256x4096.Idx) :
    k0_pay3 (F := Ideal) (accAt (F := Ideal) V c t.val t.isLt) y = GK O (((cfg0.win 4).blk t).view.emb y) := by
  have hy : y = ix3 (0 : Fin 1) (y 1) (y 2) := by
    funext a
    match a with
    | ⟨0, _⟩ => exact Subsingleton.elim (α := Fin 1) _ _
    | ⟨1, _⟩ => rfl
    | ⟨2, _⟩ => rfl
  have e1 : k0_pay3 (F := Ideal) (accAt (F := Ideal) V c t.val t.isLt) y = accAt (F := Ideal) V c t.val t.isLt (ix2 (y 1) (y 2)) :=
    (congrArg (k0_pay3 (F := Ideal) (accAt (F := Ideal) V c t.val t.isLt)) hy).trans (pay3_apply _ (y 1) (y 2))
  refine e1.trans ((hacc t ht (y 1) (y 2)).trans ?_)
  obtain ⟨i0, i1, i2⟩ := out_idx t
  have hy0 : (y 0).val < 1 := (y 0).isLt
  have hy1 : (y 1).val < 256 := (y 1).isLt
  have hy2 : (y 2).val < 4096 := (y 2).isLt
  have c0 : ((((cfg0.win 4).blk t).view.emb y) 0).val = t.val / 128 := by
    show win0_4.index t (0 : Fin 3) * 1 + 1 * (y 0).val = _
    omega
  have c1 : ((((cfg0.win 4).blk t).view.emb y) 1).val = t.val / 16 % 8 * 256 + (y 1).val := by
    show win0_4.index t (1 : Fin 3) * 256 + 1 * (y 1).val = _
    omega
  have c2 : ((((cfg0.win 4).blk t).view.emb y) 2).val = (y 2).val := by
    show win0_4.index t (2 : Fin 3) * 4096 + 1 * (y 2).val = _
    omega
  unfold GK
  exact O_congr O c0.symm c1.symm c2.symm

/-- WHAT A LAST-TILE POINT WRITES BACK is its block of the array function. -/
theorem out_flushed (c : Dev nD) (O : Fin 8 → Fin 2048 → Fin 4096 → EReal)
    (hacc : ∀ (t : Fin cfg0.N), t.val % 16 = 15 → ∀ (r : Fin 256) (h : Fin 4096),
      accAt (F := Ideal) V c t.val t.isLt (ix2 r h)
        = O ⟨t.val / 128, by have := t.isLt; have hN : cfg0.N = 1024 := N_0; omega⟩ ⟨t.val / 16 % 8 * 256 + r.val, by have := r.isLt; omega⟩ h)
    (t : Fin cfg0.N) (hf : (cfg0.win 4).flush t = true) :
    (dat0 (F := Ideal) V c).flushed 4 t = ((cfg0.win 4).blk t).view.read (Elt Ideal) (GK O) := by
  have ht : t.val % 16 = 15 := (flush0_4 t).mp hf
  show (cfg0.win 4).cut (grid0.coords t) ((dat0 V c).after 4 t) = _
  rw [after_4]
  funext y
  rw [View.read_apply]
  exact out_entry V c O hacc t ht y

/-- Every index of the output array lies in the block of a last-tile point: the last tile of its expert and of
    the token tile its row falls in. -/
theorem out_cover (i : S8x2048x4096.Idx) :
    ∃ t : Fin cfg0.N, (cfg0.win 4).flush t = true ∧ i ∈ ((cfg0.win 4).blk t).view.set := by
  have hN : cfg0.N = 1024 := N_0
  have h0 : (i 0).val < 8 := (i 0).isLt
  have h1 : (i 1).val < 2048 := (i 1).isLt
  have h2 : (i 2).val < 4096 := (i 2).isLt
  have key : ∀ t : Fin cfg0.N, t.val = (i 0).val * 128 + (i 1).val / 256 * 16 + 15 →
      (cfg0.win 4).flush t = true ∧ i ∈ ((cfg0.win 4).blk t).view.set := by
    intro t ht
    obtain ⟨i0, i1, i2⟩ := out_idx t
    refine ⟨(flush0_4 t).mpr (by omega), ?_⟩
    show i ∈ ((View.whole main_v4).slice (win0_4.rect t)).set
    rw [View.set_slice_whole, Rect.mem_set_unit]
    intro a
    match a with
    | ⟨0, _⟩ =>
      show win0_4.index t (0 : Fin 3) * 1 ≤ (i 0).val ∧ (i 0).val < win0_4.index t (0 : Fin 3) * 1 + 1
      omega
    | ⟨1, _⟩ =>
      show win0_4.index t (1 : Fin 3) * 256 ≤ (i 1).val ∧ (i 1).val < win0_4.index t (1 : Fin 3) * 256 + 256
      omega
    | ⟨2, _⟩ =>
      show win0_4.index t (2 : Fin 3) * 4096 ≤ (i 2).val ∧ (i 2).val < win0_4.index t (2 : Fin 3) * 4096 + 4096
      omega
  exact ⟨⟨(i 0).val * 128 + (i 1).val / 256 * 16 + 15, by omega⟩, key _ rfl⟩

/-- THE OUTPUT ARRAY after the whole grid: when the accumulator at every last tile holds the array function's
    rows of that (expert, token tile), the array holds the function everywhere. -/
theorem out_array (c : Dev nD) (O : Fin 8 → Fin 2048 → Fin 4096 → EReal)
    (hacc : ∀ (t : Fin cfg0.N), t.val % 16 = 15 → ∀ (r : Fin 256) (h : Fin 4096),
      accAt (F := Ideal) V c t.val t.isLt (ix2 r h)
        = O ⟨t.val / 128, by have := t.isLt; have hN : cfg0.N = 1024 := N_0; omega⟩ ⟨t.val / 16 % 8 * 256 + r.val, by have := r.isLt; omega⟩ h)
    (e : Fin 8) (tk : Fin 2048) (h : Fin 4096) :
    ((dat0 (F := Ideal) V c).arrAt 4 cfg0.N : FVec Ideal S8x2048x4096 .f32) (ix3 e tk h) = O e tk h := by
  have hfin : (dat0 (F := Ideal) V c).arrAt 4 cfg0.N = GK O :=
    (dat0 (F := Ideal) V c).arrAt_eq_of_cover 4 (GK O) (out_flushed V c O hacc) out_cover
  exact (congrFun hfin (ix3 e tk h)).trans (GK_apply O e tk h)

end Cert.KernelIdeal.Hand

end
-- ==== Proof.KI.KernelValue.lean ====
import proofs.«142885_j90031104459227_1_alg».proof.Proof.KI.Launch
import proofs.«142885_j90031104459227_1_alg».proof.Proof.KI.AccValue
import proofs.«142885_j90031104459227_1_alg».proof.Proof.KI.OutArray
import proofs.«142885_j90031104459227_1_alg».proof.Proof.Spec
import Idealize.ShloMosaic.Lib.ValueIdx
import Idealize.ShloMosaic.Lib.Pipeline.Value

set_option maxRecDepth 16384

noncomputable section

/-! ## What the kernel's program leaves in its result buffer, at the ideal instance

The host lines before the region only change formats (the identity on extended reals) and reshape the tokens to
expert × token × hidden; the region's write-backs leave, entry by entry, the specification's `out`; the last host line
reshapes back to tokens × hidden. So the result buffer holds the specification's `G` of the three arguments. -/

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ)

/-- The token array as the region finds it: the first argument, format changed and reshaped. -/
theorem V1_v1 (c : Dev nD) :
    (V1 m c main_v1 : FVec Ideal S8x2048x4096 .bf16)
      = shapeCast S8x2048x4096 (truncf (F := Ideal) .bf16 (m ((c : Thread nD τ).loc main_arg0) : FVec Ideal S16384x4096 .f32) bitsLt_bf16_f32) shapeCasts_S16384x4096_S8x2048x4096 := by
  show StableHlo.after hostOps0 (W0 m c) (Proc.devRef .tc main_v1) = _
  after_results <;> rfl

/-- The gate/up weight as the region finds it: the second argument, format changed. -/
theorem V1_v2 (c : Dev nD) :
    (V1 m c main_v2 : FVec Ideal S8x4096x8192 .bf16)
      = truncf (F := Ideal) .bf16 (m ((c : Thread nD τ).loc main_arg1) : FVec Ideal S8x4096x8192 .f32) bitsLt_bf16_f32 := by
  show StableHlo.after hostOps0 (W0 m c) (Proc.devRef .tc main_v2) = _
  after_results <;> rfl

/-- The down weight as the region finds it: the third argument, format changed. -/
theorem V1_v3 (c : Dev nD) :
    (V1 m c main_v3 : FVec Ideal S8x4096x4096 .bf16)
      = truncf (F := Ideal) .bf16 (m ((c : Thread nD τ).loc main_arg2) : FVec Ideal S8x4096x4096 .f32) bitsLt_bf16_f32 := by
  show StableHlo.after hostOps0 (W0 m c) (Proc.devRef .tc main_v3) = _
  after_results <;> rfl

/-- Entry (expert, token, hidden) of the reshaped tokens is entry (token row, hidden) of the first argument. -/
theorem tokens_at (c : Dev nD) (e : Fin 8) (tk : Fin 2048) (j : Fin 4096) :
    (V1 m c main_v1 : FVec Ideal S8x2048x4096 .bf16) (ix3 e tk j)
      = (m ((c : Thread nD τ).loc main_arg0) : FVec Ideal Cert.Moe.SX .f32) (ix2 (Cert.Moe.tok e tk) j) := by
  rw [V1_v1]
  refine (shapeCast_apply _ shapeCasts_S16384x4096_S8x2048x4096 (ix3 e tk j) (ix2 (Cert.Moe.tok e tk) j) ?_).trans rfl
  rewrite [Shape.rowMajor_val_two, Shape.rowMajor_val_three]
  show (e.val * 2048 + tk.val) * 4096 + j.val = (e.val * 2048 + tk.val) * 4096 + j.val
  rfl

/-- THE KERNEL'S VALUE: after @main the result buffer holds the specification's function of the arguments. -/
theorem kernel_value (c : Dev nD) :
    W3 m c (Proc.devRef .tc main_v5)
      = Cert.Moe.G (m ((c : Thread nD τ).loc main_arg0)) (m ((c : Thread nD τ).loc main_arg1)) (m ((c : Thread nD τ).loc main_arg2)) := by
  rw [W3_v5]
  funext i
  obtain ⟨T, h, rfl⟩ : ∃ (T : Fin 16384) (h : Fin 4096), i = ix2 T h := ⟨i 0, i 1, eq_ix2 i⟩
  have hT := T.isLt
  refine (shapeCast_apply _ shapeCasts_S8x2048x4096_S16384x4096 (ix2 T h)
    (ix3 (⟨T.val / 2048, by omega⟩ : Fin 8) (⟨T.val % 2048, Nat.mod_lt _ (by decide)⟩ : Fin 2048) h) ?_).trans ?_
  · rewrite [Shape.rowMajor_val_three, Shape.rowMajor_val_two]
    show (T.val / 2048 * 2048 + T.val % 2048) * 4096 + h.val = T.val * 4096 + h.val
    omega
  · exact out_array (V1 m) c
      (Cert.Moe.out (m ((c : Thread nD τ).loc main_arg0)) (m ((c : Thread nD τ).loc main_arg1)) (m ((c : Thread nD τ).loc main_arg2)))
      (fun t ht r h => acc_last (V1 m) c _ _ _ (tokens_at m c)
        (fun e j col => by rw [V1_v2]; rfl) (fun e f h => by rw [V1_v3]; rfl) t ht r h)
      _ _ h

end Cert.KernelIdeal.Hand

end
-- ==== Proof.RefIsG.lean ====
/-
  The reference program's result is the specification function.

  The reference reshapes the tokens into expert × token × hidden, multiplies each expert's tokens by its gate/up weight,
  slices the product into its gate half and its up half, forms `up · (gate · (1 / (1 + exp (-gate))))`, multiplies by the
  expert's down projection and reshapes back to tokens × hidden. Stage by stage, each intermediate array read at explicit
  coordinates is the corresponding function of the specification; the composition is `Cert.Moe.G`.
-/
import proofs.«142885_j90031104459227_1_alg».proof.Proof.Gen.ReferenceIdeal.Read
import proofs.«142885_j90031104459227_1_alg».proof.Proof.Spec
import Idealize.ShloMosaic.Lib.ValueIdx
import Idealize.ShloMosaic.PureOps.Ideal.Laws

noncomputable section

open scoped BigOperators

namespace Cert.Moe.Ref

open Cert.ReferenceIdeal Cert.ReferenceIdeal.Read Idealize.ShloMosaic Idealize.ShloMosaic.ValueIdx

/-! ## The constant -/

/-- The word `0x3F800000` is the number one. -/
theorem one_word : Ideal.ofBits .f32 0x3F800000#32 = (1 : EReal) :=
  IdealRules.sign_bit.ideal_onePat .f32

/-! ## Index equations: the composed index maps at explicit coordinates -/

/-- Reading the reshaped tokens at (expert, token, hidden) reads the token row `e * 2048 + t`. -/
theorem idx_v0_at (e : Fin 8) (t : Fin 2048) (j : Fin 4096) :
    idx_main_v0 (ix3 e t j) = ix2 (tok e t) j := by
  have he := e.isLt; have ht := t.isLt; have hj := j.isLt
  funext a
  apply Fin.ext
  match a with
  | ⟨0, _⟩ =>
    show ((e.val * 2048 + t.val) * 4096 + j.val) / 4096 = e.val * 2048 + t.val
    omega
  | ⟨1, _⟩ =>
    show ((e.val * 2048 + t.val) * 4096 + j.val) % 4096 = j.val
    omega

/-- The left operand of the first product at contraction position `k`. -/
theorem lidx_v1_at (e : Fin 8) (t : Fin 2048) (c : Fin 8192) (k : Fin 4096) :
    lidx_main_v1 (ix3 e t c) k = ix3 e t k := by
  funext a
  match a with
  | ⟨0, _⟩ => rfl
  | ⟨1, _⟩ => rfl
  | ⟨2, _⟩ => rfl

/-- The right operand of the first product at contraction position `k`. -/
theorem ridx_v1_at (e : Fin 8) (t : Fin 2048) (c : Fin 8192) (k : Fin 4096) :
    ridx_main_v1 (ix3 e t c) k = ix3 e k c := by
  funext a
  match a with
  | ⟨0, _⟩ => rfl
  | ⟨1, _⟩ => rfl
  | ⟨2, _⟩ => rfl

/-- The gate slice reads column `f`. -/
theorem idx_v2_at (e : Fin 8) (t : Fin 2048) (f : Fin 4096) :
    idx_main_v2 (ix3 e t f) = ix3 e t (gateCol f) := by
  funext a
  match a with
  | ⟨0, _⟩ => rfl
  | ⟨1, _⟩ => rfl
  | ⟨2, _⟩ => rfl

/-- The up slice reads column `4096 + f`. -/
theorem idx_v3_at (e : Fin 8) (t : Fin 2048) (f : Fin 4096) :
    idx_main_v3 (ix3 e t f) = ix3 e t (upCol f) := by
  funext a
  match a with
  | ⟨0, _⟩ => rfl
  | ⟨1, _⟩ => rfl
  | ⟨2, _⟩ => rfl

/-- The left operand of the second product at contraction position `k`. -/
theorem lidx_v6_at (e : Fin 8) (t : Fin 2048) (h : Fin 4096) (k : Fin 4096) :
    lidx_main_v6 (ix3 e t h) k = ix3 e t k := by
  funext a
  match a with
  | ⟨0, _⟩ => rfl
  | ⟨1, _⟩ => rfl
  | ⟨2, _⟩ => rfl

/-- The right operand of the second product at contraction position `k`. -/
theorem ridx_v6_at (e : Fin 8) (t : Fin 2048) (h : Fin 4096) (k : Fin 4096) :
    ridx_main_v6 (ix3 e t h) k = ix3 e k h := by
  funext a
  match a with
  | ⟨0, _⟩ => rfl
  | ⟨1, _⟩ => rfl
  | ⟨2, _⟩ => rfl

/-- Token row `T` of the result is token `T % 2048` of expert `T / 2048`. -/
theorem idx_v7_at (T : Fin 16384) (h : Fin 4096) :
    idx_main_v7 (ix2 T h)
      = ix3 (⟨T.val / 2048, by have := T.isLt; omega⟩ : Fin 8) (⟨T.val % 2048, Nat.mod_lt _ (by decide)⟩ : Fin 2048) h := by
  have hT := T.isLt; have hh := h.isLt
  funext a
  apply Fin.ext
  match a with
  | ⟨0, _⟩ =>
    show (T.val * 4096 + h.val) / 8388608 = T.val / 2048
    omega
  | ⟨1, _⟩ =>
    show (T.val * 4096 + h.val) / 4096 % 2048 = T.val % 2048
    omega
  | ⟨2, _⟩ =>
    show (T.val * 4096 + h.val) % 4096 = h.val
    omega

/-! ## The stages at explicit coordinates -/

variable (x0 : FVec Ideal S16384x4096 .f32) (x1 : FVec Ideal S8x4096x8192 .f32) (x2 : FVec Ideal S8x4096x4096 .f32)

/-- The reshaped tokens. -/
theorem v0_at (e : Fin 8) (t : Fin 2048) (j : Fin 4096) :
    val_main_v0 (F := Ideal) x0 (ix3 e t j) = x0 (ix2 (tok e t) j) := by
  rw [val_main_v0_apply, idx_v0_at]

/-- The first product is the gate/up projection. -/
theorem v1_at (e : Fin 8) (t : Fin 2048) (c : Fin 8192) :
    val_main_v1 (F := Ideal) x0 x1 (ix3 e t c) = proj x0 x1 e t c := by
  rw [val_main_v1_apply]
  unfold proj
  refine Finset.sum_congr rfl fun k _ => ?_
  rw [lidx_v1_at, ridx_v1_at, v0_at]

/-- The gate half. -/
theorem v2_at (e : Fin 8) (t : Fin 2048) (f : Fin 4096) :
    val_main_v2 (F := Ideal) x0 x1 (ix3 e t f) = proj x0 x1 e t (gateCol f) := by
  rw [val_main_v2_apply, idx_v2_at, v1_at]

/-- The up half. -/
theorem v3_at (e : Fin 8) (t : Fin 2048) (f : Fin 4096) :
    val_main_v3 (F := Ideal) x0 x1 (ix3 e t f) = proj x0 x1 e t (upCol f) := by
  rw [val_main_v3_apply, idx_v3_at, v1_at]

/-- `gate · (1 / (1 + exp (-gate)))` is `gate · logistic gate`. -/
theorem v4_at (e : Fin 8) (t : Fin 2048) (f : Fin 4096) :
    val_main_v4 (F := Ideal) x0 x1 (ix3 e t f)
      = proj x0 x1 e t (gateCol f) * Ideal.logistic (proj x0 x1 e t (gateCol f)) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, v2_at]
  simp only [Ideal.mulf_def, Ideal.hostDivf_def, Ideal.addf_def, Ideal.hostUnary_exp_def, Ideal.hostNegf_def,
    Ideal.negf_def, Ideal.ofBits_def, one_word]
  rfl

/-- The activation stage. -/
theorem v5_at (e : Fin 8) (t : Fin 2048) (f : Fin 4096) :
    val_main_v5 (F := Ideal) x0 x1 (ix3 e t f) = act x0 x1 e t f := by
  rw [val_main_v5_apply, v3_at, v4_at]
  rfl

/-- The second product is the result entry. -/
theorem v6_at (e : Fin 8) (t : Fin 2048) (h : Fin 4096) :
    val_main_v6 (F := Ideal) x0 x1 x2 (ix3 e t h) = out x0 x1 x2 e t h := by
  rw [val_main_v6_apply]
  unfold out
  refine Finset.sum_congr rfl fun k _ => ?_
  rw [lidx_v6_at, ridx_v6_at, v5_at]

/-- The result reshaped back to tokens × hidden. -/
theorem v7_at (T : Fin 16384) (h : Fin 4096) :
    val_main_v7 (F := Ideal) x0 x1 x2 (ix2 T h)
      = out x0 x1 x2 (⟨T.val / 2048, by have := T.isLt; omega⟩ : Fin 8)
          (⟨T.val % 2048, Nat.mod_lt _ (by decide)⟩ : Fin 2048) h := by
  rw [val_main_v7_apply, idx_v7_at, v6_at]

/-- The reference program's result term is the specification function. -/
theorem ref_eq_G :
    Cert.ReferenceIdeal.Read.val_main_v7 (F := Ideal) x0 x1 x2 = Cert.Moe.G x0 x1 x2 := by
  funext i
  obtain ⟨T, h, rfl⟩ : ∃ (T : Fin 16384) (h : Fin 4096), i = ix2 T h := ⟨i 0, i 1, eq_ix2 i⟩
  rw [v7_at]
  rfl

end Cert.Moe.Ref

end
-- ==== Proof.Claims.lean ====
import proofs.«142885_j90031104459227_1_alg».proof.Defs
import proofs.«142885_j90031104459227_1_alg».proof.Proof.K.Launch
import proofs.«142885_j90031104459227_1_alg».proof.Proof.KI.KernelValue
import proofs.«142885_j90031104459227_1_alg».proof.Proof.RefIsG
import proofs.«142885_j90031104459227_1_alg».proof.Proof.Gen.ReferenceIdeal.Run
import proofs.«142885_j90031104459227_1_alg».proof.Proof.Gen.Pre_finite_inputs

noncomputable section

/-! ## The five claims

Both kernel programs run to the end with the arguments untouched (the hand-written run over @main's three segments,
at the word-level instance and at the ideal one); the reference is a line of host operations; the idealization
rewrote nothing; and at the ideal instance both result buffers hold the specification's `G` of the arguments:
the kernel tile by tile, sixteen intermediate tiles accumulated per output block, the reference by two whole matrix
products — one sum over the 4096 intermediate columns either way, and the same `up · (gate · logistic gate)`
activation under it. No law beyond regrouping a finite sum is used, so the precondition is never opened. -/

namespace Cert.Proof.MoeClaims

open Idealize.ShloMosaic Idealize.ShloMosaic.TcCoe Idealize.SL.Sem

theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.Moe.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v7_eq, Cert.Moe.Ref.ref_eq_G, (hagree c).1, (hagree c).2.1, (hagree c).2.2]

end Cert.Proof.MoeClaims

end
-- ==== Proof.lean ====
/- The proof of `Cert.Claim`: a mixture-of-experts SwiGLU feed-forward as one tiled kernel against two whole
   matrix products. The three frames, the (empty) idealization ledger and the equality of the two results over the
   extended reals are proved in `Proof/Claims.lean`; the witnesses of the programs' stated facts are the generated
   instances. -/
import proofs.«142885_j90031104459227_1_alg».proof.Defs
import proofs.«142885_j90031104459227_1_alg».proof.Proof.Gen.Kernel
import proofs.«142885_j90031104459227_1_alg».proof.Proof.Gen.KernelIdeal
import proofs.«142885_j90031104459227_1_alg».proof.Proof.Gen.ReferenceIdeal
import proofs.«142885_j90031104459227_1_alg».proof.Proof.Gen.Pre_finite_inputs
import proofs.«142885_j90031104459227_1_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    MoeClaims.frame_k, MoeClaims.frame_ki, MoeClaims.frame_ri, MoeClaims.preserves, MoeClaims.algebraic⟩

end Cert.Proof

end
